-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x512 .f32) (main_arg1 : IVec S8192x8192 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x8192 .f32 := sitofp .f32 main_arg1
  let main_cst_0 : FVec F S_ .f32 := constant S_ .f32 0x00000000#32
  let main_v5 : FVec F S8192 .f32 := (fun x v => Host.reduceAdd x v reducesTo_S8192x8192_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .une main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x512 : Shape := ⟨2, ![1024, 512]⟩
abbrev S1024x1 : Shape := ⟨2, ![1024, 1]⟩
abbrev S1x1024 : Shape := ⟨2, ![1, 1024]⟩
abbrev S1024x1024 : Shape := ⟨2, ![1024, 1024]⟩
abbrev S512x1024 : Shape := ⟨2, ![512, 1024]⟩
abbrev S1024 : Shape := ⟨1, ![1024]⟩
abbrev S512 : Shape := ⟨1, ![512]⟩
abbrev S1x512 : Shape := ⟨2, ![1, 512]⟩

abbrev nBuf : Space → Nat
  | .hbm => 30
  | .vmem => 14
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x512, .bf16⟩
  | .hbm, ⟨8, _⟩ => ⟨S8192x1, .f32⟩
  | .hbm, ⟨9, _⟩ => ⟨S8192, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S512, .f32⟩
  | .hbm, ⟨15, _⟩ => ⟨S_, .f32⟩
  | .hbm, ⟨16, _⟩ => ⟨S512, .f32⟩
  | .hbm, ⟨17, _⟩ => ⟨S512, .f32⟩
  | .hbm, ⟨18, _⟩ => ⟨S1x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1024, .i32⟩
  | .local _ .vmem, ⟨9, _⟩ => ⟨S1024x1024, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_call0_v0 : Ref sig .tc := ⟨.hbm, 21, rfl⟩
abbrev main_call0_cst : Ref sig .tc := ⟨.hbm, 22, rfl⟩
abbrev main_call0_v1 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v41 : BitVec 1 := Scalar.cmpi .eq arg1 c7_i32
  let v42 : BitVec 32 := Scalar.extui v41
  let c0_i32_23 : BitVec 32 := 0#32
  let v43 : BitVec 1 := Scalar.cmpi .ne v42 c0_i32_23
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  reducesTo_S8192x512_S8192_d1 : S8192x512.ReducesTo [1] S8192
  h_S_ : 0 < S_.numel
  shapeCasts_S8192_S8192x1 : S8192.ShapeCasts S8192x1
  shapeCasts_S8192_S1x8192 : S8192.ShapeCasts S1x8192
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  shapeCasts_S8192x1_S8192 : S8192x1.ShapeCasts S8192
  reducesTo_S8192_S_d0 : S8192.ReducesTo [0] S_
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .bf16 = 32 ∨ (Rect.block (s := S8192x512) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x512.size a
  hwx0_1 : ∀ i : grid0.Coords, EltTy.bits .bf16 = 32 ∨ (Rect.block (s := S8192x512) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .i32 = 32 ∨ (Rect.block (s := S8192x8192) S1024x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v4) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S1024x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x512 : Shape := ⟨2, ![8192, 512]⟩
abbrev S8192x8192 : Shape := ⟨2, ![8192, 8192]⟩
abbrev S_ : Shape := ⟨0, ![]⟩
abbrev S8192 : Shape := ⟨1, ![8192]⟩
abbrev S512x8192 : Shape := ⟨2, ![512, 8192]⟩
abbrev S8192x1 : Shape := ⟨2, ![8192, 1]⟩
abbrev S1x8192 : Shape := ⟨2, ![1, 8192]⟩
abbrev S512 : Shape := ⟨1, ![512]⟩
abbrev S1x512 : Shape := ⟨2, ![1, 512]⟩

abbrev nBuf : Space → Nat
  | .hbm => 51
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x8192, .i32⟩
  | .hbm, ⟨2, _⟩ => ⟨S8192x512, .f32⟩
  | .hbm, ⟨3, _⟩ => ⟨S_, .f32⟩
  | .hbm, ⟨4, _⟩ => ⟨S8192, .f32⟩
  | .hbm, ⟨5, _⟩ => ⟨S512x8192, .f32⟩
  | .hbm, ⟨6, _⟩ => ⟨S8192x8192, .f32⟩
  | .hbm, ⟨7, _⟩ => ⟨S8192x1, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S512, .f32⟩
  | .hbm, ⟨36, _⟩ => ⟨S_, .f32⟩
  | .hbm, ⟨37, _⟩ => ⟨S512, .f32⟩
  | .hbm, ⟨38, _⟩ => ⟨S512, .f32⟩
  | .hbm, ⟨39, _⟩ => ⟨S1x512, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_cst : Ref sig .tc := ⟨.hbm, 43, rfl⟩
abbrev main_call1_v1 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  transposes_S8192x512_S512x8192_1_0 : S8192x512.Transposes [1, 0] S512x8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  reducesTo_S8192x8192_S8192_d1 : S8192x8192.ReducesTo [1] S8192
  reducesTo_S8192x8192_S_d0_1 : S8192x8192.ReducesTo [0, 1] S_
  reducesTo_S8192x512_S512_d0 : S8192x512.ReducesTo [0] S512
  bcast_S_S512 : S_.BroadcastsInDim S512 (![] : Fin 0 → Fin S512.rank)
  bcast_S512_S1x512_1 : S512.BroadcastsInDim S1x512 (![1] : Fin 1 → Fin S1x512.rank)
  bcast_S1x512_S8192x512_0_1 : S1x512.BroadcastsInDim S8192x512 (![0, 1] : Fin 2 → Fin S8192x512.rank)
  reducesTo_S8192_S_d0 : S8192.ReducesTo [0] S_
  dot_S8192x512_S512x8192_S8192x8192_1_0_0_1_n_n_wf : DotDims.WF S8192x512 S512x8192 S8192x8192 [1] [0] [0] [1] [] []

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf

class Facts : Prop extends Facts₀ where

variable [Facts]
-- ==== Proof.K.Runs.lean ====
/-
  What the proofs about the kernel's region share.

  The region is entered after six host operations (the rows' squared norms, their two reshapes, the
  conversion of the embeddings): `V` names every buffer's contents at that moment, `iblk` a window's block
  of its array at a grid point.  The grid is 8 × 8, the point `t` at row block `t / 8` and column block
  `t % 8`.  The body resets its two accumulators where the column block is 0 (`cond0_0`, the points
  ≡ 0 mod 8) and stores the quotient into the output block where it is 7 (`cond0_1`, the points ≡ 7 mod 8);
  elsewhere the output's staging buffer is left alone and is not written back.
-/
import proofs.«101301_j75651553951784_2_alg».proof.Proof.Gen.Kernel.Launch
import proofs.«101301_j75651553951784_2_alg».proof.Proof.Gen.Kernel.Skeleton
import proofs.«101301_j75651553951784_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, over the grid -/

/-- The column block is the first: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The column block is the last: the quotient is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last column block the output window is idle, -/
theorem idleAt0_5 : ∀ t : Fin cfg0.N, ¬cond0_1 (grid0.coords t) → cfg0.idle 5 (grid0.coords t) = true := by decide +kernel
/-- and is not written back; -/
theorem noFlush0_5 : ∀ t : Fin cfg0.N, ¬cond0_1 (grid0.coords t) → (cfg0.win 5).flush t = false := by decide +kernel
/-- at the last column block it is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-- What the launch hands the region besides the windows: the two accumulators at anything and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Data.lean ====
/-
  What the accumulators and the output block hold after each grid point, and the proof data of the region.

  `accAt m c n` is the pair (numerator accumulator, degree accumulator) after the body at position `n`: at the
  first column block (`n % 8 = 0`) the body's additions over the zero vectors, elsewhere over what position
  `n - 1` left.  `outAt` is their quotient, which the body stores at the last column block.  Between points the
  two accumulators are held at `accAt`'s components (`PhiS`).  The embeddings array is read by two windows
  (the row block and the column block): the first holds its left half share, the second the right half.
-/
import proofs.«101301_j75651553951784_2_alg».proof.Proof.K.Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators (numerator, degree) after the body at position `n`. -/
def accAt (c : Dev nD) : (n : ℕ) → n < cfg0.N → Vec F S1024x1 .f32 × Vec F S1024x1 .f32
  | 0, hn => (k0_pay6 (iblk m c 0 ⟨0, hn⟩) (iblk m c 1 ⟨0, hn⟩) (iblk m c 2 ⟨0, hn⟩) (iblk m c 3 ⟨0, hn⟩) (iblk m c 4 ⟨0, hn⟩) (k0_pay3 (F := F)), k0_pay1 (k0_pay5 (iblk m c 4 ⟨0, hn⟩)) (k0_pay4 (F := F)))
  | n + 1, hn =>
    if (n + 1) % 8 = 0 then
      (k0_pay6 (iblk m c 0 ⟨n + 1, hn⟩) (iblk m c 1 ⟨n + 1, hn⟩) (iblk m c 2 ⟨n + 1, hn⟩) (iblk m c 3 ⟨n + 1, hn⟩) (iblk m c 4 ⟨n + 1, hn⟩) (k0_pay3 (F := F)), k0_pay1 (k0_pay5 (iblk m c 4 ⟨n + 1, hn⟩)) (k0_pay4 (F := F)))
    else
      (k0_pay6 (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn)).1, k0_pay1 (k0_pay5 (iblk m c 4 ⟨n + 1, hn⟩)) (accAt c n (Nat.lt_of_succ_lt hn)).2)

/-- At a point of the first column block: the additions over the reset accumulators. -/
theorem accAt_reset (c : Dev nD) (t : Fin cfg0.N) (h0 : t.val % 8 = 0) :
    accAt m c t.val t.isLt = (k0_pay6 (iblk m c 0 t) (iblk m c 1 t) (iblk m c 2 t) (iblk m c 3 t) (iblk m c 4 t) (k0_pay3 (F := F)), k0_pay1 (k0_pay5 (iblk m c 4 t)) (k0_pay4 (F := F))) := by
  obtain ⟨n, hn⟩ := t
  cases n with
  | zero => exact rfl
  | succ n => exact (if_pos h0).trans rfl

/-- At any other point: the additions over what the point before left. -/
theorem accAt_step (c : Dev nD) (t : Fin cfg0.N) (h0 : ¬t.val % 8 = 0) :
    accAt m c t.val t.isLt = (k0_pay6 (iblk m c 0 t) (iblk m c 1 t) (iblk m c 2 t) (iblk m c 3 t) (iblk m c 4 t) (accAt m c (t.val - 1) (Nat.lt_of_le_of_lt (Nat.sub_le _ _) t.isLt)).1, k0_pay1 (k0_pay5 (iblk m c 4 t)) (accAt m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The quotient of the accumulators after point `t`: what the last column block's point stores. -/
def outAt (c : Dev nD) (t : Fin cfg0.N) : Vec F S1024x1 .f32 := k0_pay2 (accAt m c t.val t.isLt).1 (accAt m c t.val t.isLt).2

/-- The region invariant before position `n`: before the first point what the launch hands over; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]

end Cert.Kernel.Hand

end
-- ==== Proof.K.RunA.lean ====
/-
  The kernel body run once, at a point of the FIRST column block: the accumulators are reset, then added to; the output is not stored.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.K.Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond0_0 i) (hc1 : ¬cond0_1 i)
    (x0 x1 : Vec F S1024x512 .bf16) (x2 : Vec F S1024x1 .f32) (x3 : Vec F S1x1024 .f32) (x4 : Vec F S1024x1024 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay6 x0 x1 x2 x3 x4 (k0_pay3 (F := F))) ∗ owns (c : Thread nD τ) arg9 fullShare (k0_pay1 (k0_pay5 x4) (k0_pay4 (F := F)))) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists (View.read (Elt F) arg7.view f5); iexists f5; isplitr
    · ipureintro; rfl
    iexact H5
  isplitl [HS0]
  · iexists _; isplitr
    rotate_left
    · iexact HS0
    · ipureintro
      rw [read_writes_whole_cons _ _ hz]
      sl_unfold_words
      simp only [View.readAt_eq_ld, harg2.read_unread, harg3.read_unread, harg4.read_unread, harg5.read_unread, harg6.read_unread,
        View.ld_unit_zero (S := S1024x512) hz, View.ld_unit_zero (S := S1024x1) hz, View.ld_unit_zero (S := S1x1024) hz, View.ld_unit_zero (S := S1024x1024) hz,
        View.readCov_unit_zero (S := S1024x1) _ hz]
  iexists _; isplitr
  rotate_left
  · iexact HS1
  · ipureintro
    rw [read_writes_whole_cons _ _ hz]
    sl_unfold_words
    simp only [View.readAt_eq_ld, harg6.read_unread,
      View.ld_unit_zero (S := S1024x1) hz, View.ld_unit_zero (S := S1024x1024) hz,
      View.readCov_unit_zero (S := S1024x1) _ hz]

end Cert.Kernel.Hand

end
-- ==== Proof.K.RunB.lean ====
/-
  The kernel body run once, at a point of a MIDDLE column block: the accumulators are added to; the output is not stored.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.K.Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : ¬cond0_1 i)
    (x0 x1 : Vec F S1024x512 .bf16) (x2 : Vec F S1024x1 .f32) (x3 : Vec F S1x1024 .f32) (x4 : Vec F S1024x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay6 x0 x1 x2 x3 x4 xs0) ∗ owns (c : Thread nD τ) arg9 fullShare (k0_pay1 (k0_pay5 x4) xs1)) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists (View.read (Elt F) arg7.view f5); iexists f5; isplitr
    · ipureintro; rfl
    iexact H5
  isplitl [HS0]
  · iexists _; isplitr
    rotate_left
    · iexact HS0
    · ipureintro
      rw [read_writes_whole_cons _ _ hz]
      simp only [View.readAt_eq_ld, harg2.read_unread, harg3.read_unread, harg4.read_unread, harg5.read_unread, harg6.read_unread, harg8.read_unread,
        View.ld_unit_zero (S := S1024x512) hz, View.ld_unit_zero (S := S1024x1) hz, View.ld_unit_zero (S := S1x1024) hz, View.ld_unit_zero (S := S1024x1024) hz]
  iexists _; isplitr
  rotate_left
  · iexact HS1
  · ipureintro
    rw [read_writes_whole_cons _ _ hz]
    sl_unfold_words
    simp only [View.readAt_eq_ld, harg6.read_unread, harg9.read_unread,
      View.ld_unit_zero (S := S1024x1) hz, View.ld_unit_zero (S := S1024x1024) hz]

end Cert.Kernel.Hand

end
-- ==== Proof.K.RunC.lean ====
/-
  The kernel body run once, at a point of the LAST column block: the accumulators are added to and their quotient is stored into the output block.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.K.Runs
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : cond0_1 i)
    (x0 x1 : Vec F S1024x512 .bf16) (x2 : Vec F S1024x1 .f32) (x3 : Vec F S1x1024 .f32) (x4 : Vec F S1024x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay6 x0 x1 x2 x3 x4 xs0) (k0_pay1 (k0_pay5 x4) xs1)) ∗ owns (c : Thread nD τ) arg8 fullShare (k0_pay6 x0 x1 x2 x3 x4 xs0) ∗ owns (c : Thread nD τ) arg9 fullShare (k0_pay1 (k0_pay5 x4) xs1)) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      sl_unfold_words
      rw [read_writes_whole_cons _ _ hz]
      simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]
  isplitl [HS0]
  · iexists _; isplitr
    rotate_left
    · iexact HS0
    · ipureintro
      sl_unfold_words
      rw [read_writes_whole_cons _ _ hz]
      simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]
  iexists _; isplitr
  rotate_left
  · iexact HS1
  · ipureintro
    sl_unfold_words
    rw [read_writes_whole_cons _ _ hz]
    simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]

end Cert.Kernel.Hand

end
-- ==== Proof.K.Body.lean ====
/-
  The body obligation of the region: at every grid point, from the region invariant, the inputs' staging
  buffers at their blocks and the output's at anything, the kernel body runs to the invariant of the next
  point — the accumulators at `accAt` —, the inputs' buffers as they were and, at the last column block, the
  output's buffer at the quotient `outAt`.  By cases on the column block (first, middle, last), each the run of
  that case.
-/
import proofs.«101301_j75651553951784_2_alg».proof.Proof.K.Data
import proofs.«101301_j75651553951784_2_alg».proof.Proof.K.RunA
import proofs.«101301_j75651553951784_2_alg».proof.Proof.K.RunB
import proofs.«101301_j75651553951784_2_alg».proof.Proof.K.RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## What the body finds in the inputs' staging buffers

An input window is never idle and its body leaves its block in place, so at every point its current staging
buffer holds its block of the array as the region found it, whether the point fetched it or the block index did
not move since the point before. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## What the body finds in the output's staging buffer

The output window is never fetched; it is written back exactly at the points of the last column block, and is
idle at every other point.  So whatever the point, nothing the body stored is still in the buffer it is handed:
before the first point and after a write-back the buffer is fresh, and through a run of idle points it holds
what it held when the run began.  By induction on the point the buffer holds anything. -/

theorem before0_5_aux (c : Dev nD) (d) : ∀ (n : ℕ) (t : Fin cfg0.N), t.val = n → (dats m 0 c).before 5 t d = d
  | 0, t, ht => (dats m 0 c).before_out_reset 5 rfl t (.inl ht) d
  | n + 1, t, ht => by
    have htz : t.val ≠ 0 := by omega
    by_cases h7 : (t.val - 1) % 8 = 7
    · exact (dats m 0 c).before_out_reset 5 rfl t
        (.inr ⟨htz, (flush0_5 ⟨t.val - 1, (Nat.lt_of_le_of_lt (Nat.sub_le _ _) t.isLt)⟩).mpr h7⟩) d
    · have hnc : ¬cond0_1 (grid0.coords ⟨t.val - 1, (Nat.lt_of_le_of_lt (Nat.sub_le _ _) t.isLt)⟩) :=
        fun h => h7 ((hcond0_1 ⟨t.val - 1, (Nat.lt_of_le_of_lt (Nat.sub_le _ _) t.isLt)⟩).mp h)
      rw [(dats m 0 c).before_of_pos 5 t htz ((cfg0.win 5).fetch_out rfl t) d, noFlush0_5 _ hnc,
        if_neg Bool.false_ne_true]
      unfold Dat.left
      rw [idleAt0_5 _ hnc]
      exact before0_5_aux c d n ⟨t.val - 1, (Nat.lt_of_le_of_lt (Nat.sub_le _ _) t.isLt)⟩ (by show t.val - 1 = n; omega)

theorem before0_5 (c : Dev nD) (t : Fin cfg0.N) (d) : (dats m 0 c).before 5 t d = d :=
  before0_5_aux m c d t.val t rfl

/-! ## What the body leaves in a live window's buffer -/

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) (h : cond0_1 (grid0.coords t)) :
    (dats m 0 c).leavesExact 5 t = owns (c : Thread nD τ) (ms0_5 t) fullShare ((dats m 0 c).after 5 t) := by
  unfold Dat.leavesExact; rw [liveAt0_5 t h]

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks and the output's anything; the column block
    says which of the three runs applies.  At the first column block the accumulators may hold anything (before
    the first point the launch hands them over so; later the point before left them at its sums, which the reset
    forgets) and end at the sums over zero; elsewhere they hold what the point before left and end at the sums over
    that.  The output's buffer is handed back at anything off the last column block and at the quotient on it.  The
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, after0_0, after0_1, after0_2, after0_3, after0_4]
  have hN : t.val < 64 := lt_of_lt_of_eq t.isLt (show cfg0.N = 64 from N_0)
  by_cases h0 : t.val % 8 = 0
  · -- the first column block
    have hc0 : cond0_0 (grid0.coords t) := (hcond0_0 t).mpr h0
    have hc1 : ¬cond0_1 (grid0.coords t) := fun h => by have := (hcond0_1 t).mp h; omega
    rw [Dat.leavesExact_idle (dats m 0 c) 5 t (idleAt0_5 t hc1) (noFlush0_5 t hc1)]
    simp only [before0_0, before0_1, before0_2, before0_3, before0_4, before0_5]
    rw [accAt_reset m c t h0]; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc0 : ¬cond0_0 (grid0.coords t) := fun h => h0 ((hcond0_0 t).mp h)
    have hz : t.val ≠ 0 := by omega
    by_cases h1 : t.val % 8 = 7
    · -- the last column block
      have hc1 : cond0_1 (grid0.coords t) := (hcond0_1 t).mpr h1
      rw [leaves0_5 m c t hc1, after0_5]
      simp only [before0_0, before0_1, before0_2, before0_3, before0_4, before0_5]
      unfold outAt
      rw [accAt_step m c t h0]; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a column block between
      have hc1 : ¬cond0_1 (grid0.coords t) := fun h => h1 ((hcond0_1 t).mp h)
      rw [Dat.leavesExact_idle (dats m 0 c) 5 t (idleAt0_5 t hc1) (noFlush0_5 t hc1)]
      simp only [before0_0, before0_1, before0_2, before0_3, before0_4, before0_5]
      rw [accAt_step m c t h0]; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := by
  intro t
  rw [bigSep_W0, bigSep_W0]
  exact sound_body m c t

end Cert.Kernel.Hand

end
-- ==== Proof.K.Shared.lean ====
/-
  Names shared by the proofs about the region's values: the global row and column an entry of a point's
  blocks sits at, and the buffers' contents when the region is left.

  Point `t` of the 8 × 8 grid is at row block `t / 8` and column block `t % 8`; blocks are 1024 wide, so row
  `r` of its row block is global row `(t / 8) · 1024 + r` and column `cc` of its column block is global column
  `(t % 8) · 1024 + cc`.  When the region is left, the output array holds what the points wrote back and
  every other buffer what it held at entry (the inputs are only read).
-/
import proofs.«101301_j75651553951784_2_alg».proof.Proof.K.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- The global row of row `r` of point `t`'s row block. -/
def rowOf (t : Fin cfg0.N) (r : Fin 1024) : Fin 8192 :=
  ⟨(t.val / 8) * 1024 + r.val, by have h := t.isLt; have hN : cfg0.N = 64 := N_0; have := r.isLt; omega⟩

/-- The global column of column `cc` of point `t`'s column block. -/
def colOf (t : Fin cfg0.N) (cc : Fin 1024) : Fin 8192 :=
  ⟨(t.val % 8) * 1024 + cc.val, by have := cc.isLt; omega⟩

/-- The buffers' contents when the region is left: the output array at what was written back, every other
    buffer as the region found it. -/
def exitVal (c : Dev nD) : Valuation τ sig (Elt F) := fun b =>
  if h : b = Proc.devRef .tc main_v5 then
    cast (congrArg (fun b' : DevRef τ sig => b'.ty.Contents (Elt F)) h.symm) ((dats m 0 c).arrAt 5 cfg0.N)
  else V0 m c b

/-- The three stretches of host operations after the region, as one list. -/
abbrev tailOps : List (HloOp τ sig (Elt F)) := List.flatten [hostOps1, hostOps1_1, hostOps1_2]

end Cert.Kernel.Hand

end
-- ==== Proof.K.Launch.lean ====
/-
  The launch: from the body obligation, every weakly fair execution of @main terminates; the result buffer
  ends at what the host operations after the region compute from the buffers as the region leaves them, and the
  two argument arrays end unchanged.

  The embeddings array is handed to the region through two windows.  Its buffer, whole at the full share when
  the region is entered, is split into its two half shares, one per window; the other arrays go to their
  windows whole.  The host operations after the region touch the output array and buffers that bypass the
  region only.
-/
import proofs.«101301_j75651553951784_2_alg».proof.Proof.K.Shared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: the embeddings' buffer split between its two windows -/

/-- The buffers behind the six windows' arrays are five: the embeddings array is behind two windows. -/
private theorem bigSep_arrs {M : Type} [URA M] (Φ : Ref sig .tc → sProp M) :
    bigSep (Finset.univ.image (Pipeline.arrRef spec0)) Φ = iprop(Φ main_v4 ∗ Φ main_v2 ∗ Φ main_v3 ∗ Φ main_arg1 ∗ Φ main_v5) :=
  bigSep_eq_bigSepL_of_eq [main_v4, main_v2, main_v3, main_arg1, main_v5] (by decide) (by decide) Φ

/-- The share each window holds its array at: the two halves for the embeddings' windows, the full share elsewhere. -/
private theorem share0_0 (c : Dev nD) : (dats (F := F) m 0 c).share 0 = fullShare.left := by unfold Dat.share; rw [q0_0]; rfl
private theorem share0_1 (c : Dev nD) : (dats (F := F) m 0 c).share 1 = fullShare.right := by unfold Dat.share; rw [q0_1]; rfl
private theorem share0_2 (c : Dev nD) : (dats (F := F) m 0 c).share 2 = fullShare := by unfold Dat.share; rw [q0_2]; rfl
private theorem share0_3 (c : Dev nD) : (dats (F := F) m 0 c).share 3 = fullShare := by unfold Dat.share; rw [q0_3]; rfl
private theorem share0_4 (c : Dev nD) : (dats (F := F) m 0 c).share 4 = fullShare := by unfold Dat.share; rw [q0_4]; rfl
private theorem share0_5 (c : Dev nD) : (dats (F := F) m 0 c).share 5 = fullShare := by unfold Dat.share; rfl

/-- Before the first point every array is at its entry contents. -/
private theorem arrAt_zero (c : Dev nD) (w : Fin cfg0.W) : (dats (F := F) m 0 c).arrAt w 0 = V m c (Pipeline.arrRef spec0 w) := rfl

/-- The operations before the region allocate nothing. -/
private theorem hostOps0_fresh : (hostOps0 : List (HloOp τ sig (Elt F))).Forall fun op => op.fresh = ∅ := by
  simp only [List.Forall]; repeat' constructor

/-- @main is the operations before the region, the region, and the three stretches after it: it reduces to the
    region continued by the stretches, entered at the contents the operations before it leave. -/
private theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2].map StableHlo.seq)) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The buffers behind the arrays, each whole at the full share at the entry contents, make the windows' arrays at
    entry: the embeddings' buffer gives its left half share to window 0 and its right half share to window 1, every other
    buffer goes whole to its one window. -/
private theorem hsplit (c : Dev nD) : Pipeline.arrBufs spec0 c (V m c) ⊢ (dats (F := F) m 0 c).arrays ((dats m 0 c).arrAt · 0) := by
  unfold Pipeline.arrBufs Dat.arrays
  rw [bigSep_arrs, bigSep_W0]
  simp only [share0_0, share0_1, share0_2, share0_3, share0_4, share0_5, arrAt_zero, View.set_whole]
  iintro ⟨H4, H2, H3, H1, H5⟩
  ihave H4' := (pointsTo_share (PosShare.mem_left_op_right fullShare)).1 $$ H4
  icases H4' with ⟨H4l, H4r⟩
  isplitl [H4l]; · iexact H4l
  isplitl [H4r]; · iexact H4r
  isplitl [H2]; · iexact H2
  isplitl [H3]; · iexact H3
  isplitl [H1]; · iexact H1
  iexact H5

/-! ## The stretches after the region: what they name, what they write -/

/-- Every reference the three stretches after the region name. -/
private abbrev tailL : List (Ref sig .tc) :=
  [main_v5, main_v6, main_cst_0, main_v7, main_v8, main_cst_1, main_arg0, main_v9, main_cst_2, main_v10, main_v11, main_v12,
   main_v13, main_v14, main_call0_v0, main_call0_cst, main_call0_v1, main_v15, main_cst_3, main_v16, main_cst_4, main_v17, main_v18]

/-- Every reference they write: each operation's own result. -/
private abbrev tailW : List (Ref sig .tc) :=
  [main_v6, main_cst_0, main_v7, main_v8, main_cst_1, main_v9, main_cst_2, main_v10, main_v11, main_v12,
   main_v13, main_v14, main_call0_v0, main_call0_cst, main_call0_v1, main_v15, main_cst_3, main_v16, main_cst_4, main_v17, main_v18]

/-- A listed reference's device buffer is in the list's set of device buffers. -/
private theorem mem_devs {L : List (Ref sig .tc)} {r : Ref sig .tc} (h : r ∈ L) :
    Proc.devRef (τ := τ) .tc r ∈ (L.map (Proc.devRef (τ := τ) .tc)).toFinset :=
  List.mem_toFinset.mpr (List.mem_map.mpr ⟨r, h, rfl⟩)

/-- What is asked of an operation after the region: it names listed references only, writes listed results
    only, and allocates nothing. -/
private def TailOp (op : HloOp τ sig (Elt F)) : Prop :=
  op.bufs ⊆ (tailL.map (Proc.devRef (τ := τ) .tc)).toFinset ∧ op.writes ⊆ (tailW.map (Proc.devRef (τ := τ) .tc)).toFinset ∧ op.fresh = ∅

/-- Each operation of the first stretch is such an operation, -/
private theorem hostOps1_tail : (hostOps1 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- each of the second, -/
private theorem hostOps1_1_tail : (hostOps1_1 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- and each of the third. -/
private theorem hostOps1_2_tail : (hostOps1_2 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- Every operation of the three stretches, stretch by stretch. -/
private theorem tail_stretches : ∀ ops ∈ ([hostOps1, hostOps1_1, hostOps1_2] : List (List (HloOp τ sig (Elt F)))), ∀ op ∈ ops, TailOp op := by
  intro ops hops op hop
  simp only [List.mem_cons, List.mem_nil_iff, or_false] at hops
  rcases hops with rfl | rfl | rfl
  · exact (List.forall_iff_forall_mem.mp hostOps1_tail) op hop
  · exact (List.forall_iff_forall_mem.mp hostOps1_1_tail) op hop
  · exact (List.forall_iff_forall_mem.mp hostOps1_2_tail) op hop

/-- Every operation of the three stretches, as one list. -/
private theorem tail_ops : ∀ op ∈ (tailOps : List (HloOp τ sig (Elt F))), TailOp op := fun op hop => by
  obtain ⟨ops, hops, hop⟩ := List.mem_flatten.mp hop
  exact tail_stretches ops hops op hop

/-- A reference no operation after the region writes keeps its contents through them. -/
private theorem after_tail_of_not_written (W : Valuation τ sig (Elt F)) {r : Ref sig .tc} (hr : r ∉ tailW) :
    StableHlo.after (tailOps (F := F)) W (Proc.devRef .tc r) = W (Proc.devRef .tc r) :=
  StableHlo.after_of_forall_not_mem _ _ fun op hop hb => by
    obtain ⟨y, hy, he⟩ := List.mem_map.mp (List.mem_toFinset.mp ((tail_ops op hop).2.1 hb))
    exact hr (Proc.devRef_injective _ he ▸ hy)

/-! ## The buffers the stretches after the region run within -/

/-- The output array's buffer and the buffers that bypass the region, as device buffers. -/
private def tailS : Finset (DevRef τ sig) :=
  (insert main_v5 (Pipeline.restRefs sig spec0)).map ⟨Proc.devRef (sig := sig) .tc, Proc.devRef_injective _⟩

/-- The output array is a window's array: it does not bypass the region. -/
private theorem main_v5_not_rest : main_v5 ∉ Pipeline.restRefs sig spec0 := fun h =>
  (Finset.mem_sdiff.mp h).2 (Finset.mem_image.mpr ⟨5, Finset.mem_univ _, rfl⟩)

/-- Held at a valuation, they are the output array's buffer and the bypassing buffers at it. -/
private theorem held_tailS (c : Dev nD) (Wv : Valuation τ sig (Elt F)) :
    (StableHlo.held (c.tc : Thread nD τ) tailS Wv : sProp 𝕄)
      = iprop((((c.tc : Thread nD τ).loc main_v5) ↦{fullShare} Wv (Proc.devRef .tc main_v5))
          ∗ bigSep (Pipeline.restRefs sig spec0) fun b => ((c.tc : Thread nD τ).loc b) ↦{fullShare} Wv (Proc.devRef .tc b)) := by
  classical
  unfold StableHlo.held tailS
  rw [bigSep_map, bigSep_insert main_v5_not_rest]
  rfl

/-- Every reference the stretches name is the output array or bypasses the region: none is an input array. -/
private theorem devs_sub_tailS : (tailL.map (Proc.devRef (τ := τ) .tc)).toFinset ⊆ tailS := by
  intro b hb
  obtain ⟨r, hr, rfl⟩ := List.mem_map.mp (List.mem_toFinset.mp hb)
  refine Finset.mem_map_of_mem _ ?_
  have h : ∀ r ∈ tailL, r = main_v5 ∨ (r.isScoped = false ∧ ∀ w, (spec0 w).arr.view.ref ≠ r) := by decide
  rcases h r hr with rfl | ⟨hs, ha⟩
  · exact Finset.mem_insert_self _ _
  · exact Finset.mem_insert_of_mem (Pipeline.mem_restRefs_of r hs ha)

/-- The exit valuation at the output array: what the points wrote back. -/
private theorem exitVal_v5 (c : Dev nD) : exitVal m c (Proc.devRef .tc main_v5) = (dats (F := F) m 0 c).arrAt 5 cfg0.N := by
  unfold exitVal; rw [dif_pos rfl]; rfl

/-- The exit valuation elsewhere: the entry contents. -/
private theorem exitVal_of_ne (c : Dev nD) (b : Ref sig .tc) (hb : b ≠ main_v5) : exitVal m c (Proc.devRef .tc b) = V m c b := by
  unfold exitVal; rw [dif_neg (StableHlo.devRef_ne_of_ne hb)]

/-- What bypasses the region, at the contents the stretches after it leave. -/
private def restAfter (c : Dev nD) : sProp 𝕄 :=
  bigSep (Pipeline.restRefs sig spec0) fun b =>
    ((c.tc : Thread nD τ).loc b) ↦{fullShare} StableHlo.after (tailOps (F := F)) (exitVal m c) (Proc.devRef .tc b)

/-- The bypassing buffers at the exit valuation are at their entry contents. -/
private theorem rest_exit (c : Dev nD) :
    (bigSep (Pipeline.restRefs sig spec0) fun b => ((c.tc : Thread nD τ).loc b) ↦{fullShare} exitVal m c (Proc.devRef .tc b) : sProp 𝕄)
      = Pipeline.unscopedRest spec0 c (V m c) :=
  bigSep_congr fun b hb => by rw [exitVal_of_ne m c b fun e => main_v5_not_rest (e ▸ hb)]

/-- At the region's exit the stretches' buffers are held at the exit valuation: the output array at what was
    written back, the bypassing buffers at the entry contents. -/
private theorem held_exit (c : Dev nD) :
    (StableHlo.held (c.tc : Thread nD τ) tailS (exitVal m c) : sProp 𝕄)
      = iprop((((c.tc : Thread nD τ).loc main_v5) ↦{fullShare} (dats (F := F) m 0 c).arrAt 5 cfg0.N)
          ∗ Pipeline.unscopedRest spec0 c (V m c)) := by
  rw [held_tailS, exitVal_v5, rest_exit]

/-- After the stretches the output array is as the region left it (none of them writes it). -/
private theorem held_exit_after (c : Dev nD) :
    (StableHlo.held (c.tc : Thread nD τ) tailS (StableHlo.after (tailOps (F := F)) (exitVal m c)) : sProp 𝕄)
      = iprop((((c.tc : Thread nD τ).loc main_v5) ↦{fullShare} (dats (F := F) m 0 c).arrAt 5 cfg0.N) ∗ restAfter m c) := by
  rw [held_tailS, after_tail_of_not_written _ (by decide), exitVal_v5]
  rfl

/-! ## The stretches after the region, run -/

set_option backward.isDefEq.respectTransparency.types false in
/-- From the region's exit — the boundary, the windows' arrays at their final contents, the bypassing buffers at
    their entry contents — the three stretches run within the output array and the bypassing buffers, and hand back
    the arrays as they were and the bypassing buffers at what the stretches leave. -/
private theorem htail (𝒱₀ : Variants) (c : Dev nD) (Q' : PUnit → sProp 𝕄) :
    iprop((iprop((dats (F := F) m 0 c).arrays ((dats m 0 c).arrAt · cfg0.N) ∗ restAfter m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ
          (Pipeline.chain ([hostOps1, hostOps1_1, hostOps1_2].map StableHlo.seq)) Q' := by
  unfold Dat.arrays
  rw [bigSep_W0]
  simp only [share0_0, share0_1, share0_2, share0_3, share0_4, share0_5, View.set_whole]
  rw [← List.append_nil (List.map StableHlo.seq _)]
  iintro ⟨Hk, Hb, ⟨A0, A1, A2, A3, A4, A5⟩, HZ⟩
  ihave Hh := (Entails.of_eq (held_exit m c).symm) $$ [A5 HZ]
  · isplitl [A5] <;> iassumption
  iapply (Pipeline.wp_seqs_then pcfgs defs₀ 𝒱₀ c tailS [] [hostOps1, hostOps1_1, hostOps1_2]
    (fun ops hops op hop => ((tail_stretches ops hops op hop).1).trans devs_sub_tailS)
    (fun ops hops op hop => (tail_stretches ops hops op hop).2.2) (exitVal m c)) $$ [Hb Hh]
  · isplitl [Hb] <;> iassumption
  iintro Hb
  rw [Pipeline.chain_nil, wp_pure, held_exit_after]
  imodintro
  iapply Hk
  icases Hb with ⟨-, A5, HZ⟩
  isplitr [HZ]
  · isplitl [A0]; · iexact A0
    isplitl [A1]; · iexact A1
    isplitl [A2]; · iexact A2
    isplitl [A3]; · iexact A3
    isplitl [A4]; · iexact A4
    iexact A5
  · iexact HZ

/-! ## The invariant at the region's ends -/

/-- Before the first point the invariant is what the launch hands over. -/
private theorem Phi_first (c : Dev nD) : (dats (F := F) m 0 c).Φ 0 = Pipeline.ΦA spec0 c := PhiS_zero m c 0 (Nat.zero_le _) rfl

/-- After the last point the invariant gives back what the launch handed over: the accumulators' contents are forgotten. -/
private theorem Phi_last (c : Dev nD) : (dats (F := F) m 0 c).Φ (Fin.last cfg0.N) ⊢ Pipeline.ΦA spec0 c := by
  have h : (dats (F := F) m 0 c).Φ (Fin.last cfg0.N) = PhiS m c cfg0.N (Nat.le_refl _) := rfl
  have h64 : cfg0.N = 64 := N_0
  rw [h, PhiS_pos m c cfg0.N _ (by omega), PhiA0_eq]
  iintro ⟨⟨H0, H1⟩, Hp⟩
  isplitr [Hp]
  · isplitl [H0]
    · iexists _; iexact H0
    · iexists _; iexact H1
  · iexact Hp

/-! ## What the host operations before the region leave alone -/

/-- The references the operations before the region write: each its own result. -/
private abbrev headW : List (Ref sig .tc) := [main_v0, main_cst, main_v1, main_v2, main_v3, main_v4]

/-- Each operation before the region writes a listed reference only. -/
private theorem hostOps0_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.reshape_writes,
    Finset.singleton_subset_iff]
  repeat' constructor
  all_goals exact mem_devs (by decide)

/-- A buffer no operation before the region writes is entered at its launch contents. -/
private theorem V_of_not_written (c : Dev nD) {r : Ref sig .tc} (hr : r ∉ headW) : V m c r = m ((c.tc : Thread nD τ).loc r) := by
  show StableHlo.after (List.flatten [hostOps0]) (fun b => m (c, b)) (Proc.devRef .tc r) = _
  rw [List.flatten_cons, List.flatten_nil, List.append_nil]
  exact StableHlo.after_of_writes_sub (hostOps0 (F := F)) _ hostOps0_writes hr

/-! ## The run -/

set_option backward.isDefEq.respectTransparency.types false in
/-- The run of @main, given the body obligation. -/
theorem run_main_of (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v18) = StableHlo.after (tailOps (F := F)) (exitVal m c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain ([hostOps1, hostOps1_1, hostOps1_2].map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRest spec0 c (V m c)) (Z' := restAfter m)
    (hX := fun c => by
      rw [Pipeline.unscopedRestP_none]
      iintro ⟨HU, -, -, -, Hp, -⟩; imodintro
      isplitl [Hp]; · iexists _; iexact Hp
      iexact HU)
    (hin := fun c => by
      rw [Phi_first]; unfold Pipeline.ΦA
      iintro ⟨Hp, -, Hr⟩
      isplitl [Hr] <;> iassumption)
    (hout := fun c => (Phi_last m c).trans (by
      rw [Pipeline.ownSems0_none]; unfold Pipeline.ΦA
      iintro ⟨Hr, Hp⟩
      isplitl [Hp]; · iexact Hp
      isplitr; · iempintro
      iexact Hr))
    (htail := htail m Variants.none)
    (QY := fun c s => ∀ b ∈ Pipeline.restRefs sig spec0,
      s.mem ((c.tc : Thread nD τ).loc b) = StableHlo.after (tailOps (F := F)) (exitVal m c) (Proc.devRef .tc b))
    (hY := fun c s' => by
      iintro ⟨-, HU, HSI⟩
      unfold restAfter
      imodintro
      iapply (pointsTo_read_all (Pipeline.restRefs sig spec0) (fun b => (c.tc : Thread nD τ).loc b)
        (fun b => StableHlo.after (tailOps (F := F)) (exitVal m c) (Proc.devRef .tc b)) s')
      isplitl [HU] <;> iassumption)
    (hQ := fun s h c => by
      obtain ⟨harrs, -, hrest⟩ := h c
      refine ⟨hrest main_v18 (Pipeline.mem_restRefs_of _ (by decide) (by decide)), ?_, ?_⟩
      · rw [hrest main_arg0 (Pipeline.mem_restRefs_of _ (by decide) (by decide)), after_tail_of_not_written _ (by decide),
          exitVal_of_ne m c _ (by decide), V_of_not_written m c (by decide)]
      · exact (harrs 4).trans (((dats m 0 c).arrAt_in 4 rfl _).trans ((A_eq m c 4).trans (V_of_not_written m c (by decide)))))

end Cert.Kernel.Hand

end
-- ==== Proof.KI.Runs.lean ====
/-
  What the proofs about the kernel's region share.

  The region is entered after six host operations (the rows' squared norms, their two reshapes, the
  conversion of the embeddings): `V` names every buffer's contents at that moment, `iblk` a window's block
  of its array at a grid point.  The grid is 8 × 8, the point `t` at row block `t / 8` and column block
  `t % 8`.  The body resets its two accumulators where the column block is 0 (`cond0_0`, the points
  ≡ 0 mod 8) and stores the quotient into the output block where it is 7 (`cond0_1`, the points ≡ 7 mod 8);
  elsewhere the output's staging buffer is left alone and is not written back.
-/
import proofs.«101301_j75651553951784_2_alg».proof.Proof.Gen.KernelIdeal.Launch
import proofs.«101301_j75651553951784_2_alg».proof.Proof.Gen.KernelIdeal.Skeleton
import proofs.«101301_j75651553951784_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents after the host operations that precede the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The two branches of the body, over the grid -/

/-- The column block is the first: the accumulators are reset. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- The column block is the last: the quotient is stored. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
/-- Off the last column block the output window is idle, -/
theorem idleAt0_5 : ∀ t : Fin cfg0.N, ¬cond0_1 (grid0.coords t) → cfg0.idle 5 (grid0.coords t) = true := by decide +kernel
/-- and is not written back; -/
theorem noFlush0_5 : ∀ t : Fin cfg0.N, ¬cond0_1 (grid0.coords t) → (cfg0.win 5).flush t = false := by decide +kernel
/-- at the last column block it is live. -/
theorem liveAt0_5 : ∀ t : Fin cfg0.N, cond0_1 (grid0.coords t) → cfg0.idle 5 (grid0.coords t) = false := by decide +kernel

/-! ## The memrefs the body is called with -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1 .f32 := win0_5.stage (cfg0.slots t 5)
abbrev hs0_5 (t : Fin cfg0.N) : (ms0_5 t).IsWhole := hstage0_5 ((cfg0.slots t 5).cast nbuf0_5)
/-- The two accumulators: whole scoped buffers of the kernel's own. -/
abbrev scM0_0 : Memref sig .tc .vmem S1024x1 .f32 := Memref.whole cc0_scratch0
abbrev scM0_1 : Memref sig .tc .vmem S1024x1 .f32 := Memref.whole cc0_scratch1

/-- What the launch hands the region besides the windows: the two accumulators at anything and the generator
    register at some state. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Data.lean ====
/-
  What the accumulators and the output block hold after each grid point, and the proof data of the region.

  `accAt m c n` is the pair (numerator accumulator, degree accumulator) after the body at position `n`: at the
  first column block (`n % 8 = 0`) the body's additions over the zero vectors, elsewhere over what position
  `n - 1` left.  `outAt` is their quotient, which the body stores at the last column block.  Between points the
  two accumulators are held at `accAt`'s components (`PhiS`).  The embeddings array is read by two windows
  (the row block and the column block): the first holds its left half share, the second the right half.
-/
import proofs.«101301_j75651553951784_2_alg».proof.Proof.KI.Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The accumulators (numerator, degree) after the body at position `n`. -/
def accAt (c : Dev nD) : (n : ℕ) → n < cfg0.N → Vec F S1024x1 .f32 × Vec F S1024x1 .f32
  | 0, hn => (k0_pay6 (iblk m c 0 ⟨0, hn⟩) (iblk m c 1 ⟨0, hn⟩) (iblk m c 2 ⟨0, hn⟩) (iblk m c 3 ⟨0, hn⟩) (iblk m c 4 ⟨0, hn⟩) (k0_pay3 (F := F)), k0_pay1 (k0_pay5 (iblk m c 4 ⟨0, hn⟩)) (k0_pay4 (F := F)))
  | n + 1, hn =>
    if (n + 1) % 8 = 0 then
      (k0_pay6 (iblk m c 0 ⟨n + 1, hn⟩) (iblk m c 1 ⟨n + 1, hn⟩) (iblk m c 2 ⟨n + 1, hn⟩) (iblk m c 3 ⟨n + 1, hn⟩) (iblk m c 4 ⟨n + 1, hn⟩) (k0_pay3 (F := F)), k0_pay1 (k0_pay5 (iblk m c 4 ⟨n + 1, hn⟩)) (k0_pay4 (F := F)))
    else
      (k0_pay6 (iblk m c 0 ⟨n + 1, hn⟩) (iblk m c 1 ⟨n + 1, hn⟩) (iblk m c 2 ⟨n + 1, hn⟩) (iblk m c 3 ⟨n + 1, hn⟩) (iblk m c 4 ⟨n + 1, hn⟩) (accAt c n (Nat.lt_of_succ_lt hn)).1, k0_pay1 (k0_pay5 (iblk m c 4 ⟨n + 1, hn⟩)) (accAt c n (Nat.lt_of_succ_lt hn)).2)

/-- At a point of the first column block: the additions over the reset accumulators. -/
theorem accAt_reset (c : Dev nD) (t : Fin cfg0.N) (h0 : t.val % 8 = 0) :
    accAt m c t.val t.isLt = (k0_pay6 (iblk m c 0 t) (iblk m c 1 t) (iblk m c 2 t) (iblk m c 3 t) (iblk m c 4 t) (k0_pay3 (F := F)), k0_pay1 (k0_pay5 (iblk m c 4 t)) (k0_pay4 (F := F))) := by
  obtain ⟨n, hn⟩ := t
  cases n with
  | zero => exact rfl
  | succ n => exact (if_pos h0).trans rfl

/-- At any other point: the additions over what the point before left. -/
theorem accAt_step (c : Dev nD) (t : Fin cfg0.N) (h0 : ¬t.val % 8 = 0) :
    accAt m c t.val t.isLt = (k0_pay6 (iblk m c 0 t) (iblk m c 1 t) (iblk m c 2 t) (iblk m c 3 t) (iblk m c 4 t) (accAt m c (t.val - 1) (Nat.lt_of_le_of_lt (Nat.sub_le _ _) t.isLt)).1, k0_pay1 (k0_pay5 (iblk m c 4 t)) (accAt m c (t.val - 1) (Nat.lt_of_le_of_lt (Nat.sub_le _ _) t.isLt)).2) := by
  obtain ⟨n, hn⟩ := t
  cases n with
  | zero => exact absurd (Nat.zero_mod _) h0
  | succ n => exact (if_neg h0).trans rfl

/-- The quotient of the accumulators after point `t`: what the last column block's point stores. -/
def outAt (c : Dev nD) (t : Fin cfg0.N) : Vec F S1024x1 .f32 := k0_pay2 (accAt m c t.val t.isLt).1 (accAt m c t.val t.isLt).2

/-- The region invariant before position `n`: before the first point what the launch hands over; afterwards the two
    accumulators at what the point before left, and the generator register at some state. -/
def PhiS (c : Dev nD) : (n : ℕ) → n ≤ cfg0.N → sProp 𝕄
  | 0, _ => Pipeline.ΦA spec0 c
  | n + 1, hn => iprop(iprop(owns (c : Thread nD τ) scM0_0 fullShare ((accAt m c n hn).1) ∗ owns (c : Thread nD τ) scM0_1 fullShare ((accAt m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((accAt m c n hn).1) ∗ owns (c : Thread nD τ) scM0_1 fullShare ((accAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((accAt m c (n - 1) (by omega)).1) ∗ owns (c : Thread nD τ) scM0_1 fullShare ((accAt m c (n - 1) (by omega)).2)) ∗ (∃ r, prngReg c r)) := by
  cases n with
  | zero => exact absurd rfl hz
  | succ n => rfl

/-- The proof data of the region on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outAt m c t := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]
theorem q0_3 (c : Dev nD) : (dats m 0 c).q 3 = fullShare := by dsimp only [dats]
theorem q0_4 (c : Dev nD) : (dats m 0 c).q 4 = fullShare := by dsimp only [dats]

end Cert.KernelIdeal.Hand

end
-- ==== Proof.KI.RunA.lean ====
/-
  The kernel body run once, at a point of the FIRST column block: the accumulators are reset, then added to; the output is not stored.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.KI.Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_A (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : cond0_0 i) (hc1 : ¬cond0_1 i)
    (x0 x1 : Vec F S1024x512 .bf16) (x2 : Vec F S1024x1 .f32) (x3 : Vec F S1x1024 .f32) (x4 : Vec F S1024x1024 .i32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay6 x0 x1 x2 x3 x4 (k0_pay3 (F := F))) ∗ owns (c : Thread nD τ) arg9 fullShare (k0_pay1 (k0_pay5 x4) (k0_pay4 (F := F)))) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists (View.read (Elt F) arg7.view f5); iexists f5; isplitr
    · ipureintro; rfl
    iexact H5
  isplitl [HS0]
  · iexists _; isplitr
    rotate_left
    · iexact HS0
    · ipureintro
      rw [read_writes_whole_cons _ _ hz]
      sl_unfold_words
      simp only [View.readAt_eq_ld, harg2.read_unread, harg3.read_unread, harg4.read_unread, harg5.read_unread, harg6.read_unread,
        View.ld_unit_zero (S := S1024x512) hz, View.ld_unit_zero (S := S1024x1) hz, View.ld_unit_zero (S := S1x1024) hz, View.ld_unit_zero (S := S1024x1024) hz,
        View.readCov_unit_zero (S := S1024x1) _ hz]
  iexists _; isplitr
  rotate_left
  · iexact HS1
  · ipureintro
    rw [read_writes_whole_cons _ _ hz]
    sl_unfold_words
    simp only [View.readAt_eq_ld, harg6.read_unread,
      View.ld_unit_zero (S := S1024x1) hz, View.ld_unit_zero (S := S1024x1024) hz,
      View.readCov_unit_zero (S := S1024x1) _ hz]

end Cert.KernelIdeal.Hand

end
-- ==== Proof.KI.RunB.lean ====
/-
  The kernel body run once, at a point of a MIDDLE column block: the accumulators are added to; the output is not stored.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.KI.Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_B (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : ¬cond0_1 i)
    (x0 x1 : Vec F S1024x512 .bf16) (x2 : Vec F S1024x1 .f32) (x3 : Vec F S1x1024 .f32) (x4 : Vec F S1024x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ (∃ d, owns (c : Thread nD τ) arg7 fullShare d) ∗ owns (c : Thread nD τ) arg8 fullShare (k0_pay6 x0 x1 x2 x3 x4 xs0) ∗ owns (c : Thread nD τ) arg9 fullShare (k0_pay1 (k0_pay5 x4) xs1)) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists (View.read (Elt F) arg7.view f5); iexists f5; isplitr
    · ipureintro; rfl
    iexact H5
  isplitl [HS0]
  · iexists _; isplitr
    rotate_left
    · iexact HS0
    · ipureintro
      rw [read_writes_whole_cons _ _ hz]
      simp only [View.readAt_eq_ld, harg2.read_unread, harg3.read_unread, harg4.read_unread, harg5.read_unread, harg6.read_unread, harg8.read_unread,
        View.ld_unit_zero (S := S1024x512) hz, View.ld_unit_zero (S := S1024x1) hz, View.ld_unit_zero (S := S1x1024) hz, View.ld_unit_zero (S := S1024x1024) hz]
  iexists _; isplitr
  rotate_left
  · iexact HS1
  · ipureintro
    rw [read_writes_whole_cons _ _ hz]
    sl_unfold_words
    simp only [View.readAt_eq_ld, harg6.read_unread, harg9.read_unread,
      View.ld_unit_zero (S := S1024x1) hz, View.ld_unit_zero (S := S1024x1024) hz]

end Cert.KernelIdeal.Hand

end
-- ==== Proof.KI.RunC.lean ====
/-
  The kernel body run once, at a point of the LAST column block: the accumulators are added to and their quotient is stored into the output block.
  On whole memrefs holding the five input blocks `x0 … x4`, the body ends with the inputs as they were and the
  buffers it stores into at the values the body computes from what it loaded (the skeleton's payloads:
  `k0_pay6` the numerator accumulator plus this block's row sums of weighted distances, `k0_pay1 ∘ k0_pay5` the
  degree accumulator plus this block's row sums of the adjacency entries, `k0_pay2` their quotient,
  `k0_pay3` / `k0_pay4` the zero vectors of a reset).
-/
import proofs.«101301_j75651553951784_2_alg».proof.Proof.KI.Runs
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The two zero offsets of a whole-buffer rectangle, as the constant function. -/
private theorem hz : (![0, 0] : Fin 2 → Nat) = fun _ => 0 := funext fun a => by fin_cases a <;> rfl

section WholeStore
variable {Val : EltTy → Type} [∀ e, Nonempty (Val e)] {sig' : RefSig} {κ : Kind} {sp : Space} {S : Shape} {e : EltTy}

/-- A buffer whose last store went through the whole-shape rectangle at zero offsets reads as that store's payload,
    whatever was stored before and whatever it held. -/
private theorem read_writes_whole_cons (v : View sig' κ sp S e) (f : v.ty.Contents Val) {off : Fin S.rank → Nat}
    (h : off = fun _ => 0) (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero h inb y⟩),
    View.canon_cons_unit_zero h]

end WholeStore

set_option maxHeartbeats 1000000 in
theorem kernelRun0_C (c : Dev nD) (i : grid0.Coords) (arg2 : Memref sig .tc .vmem S1024x512 .bf16) (harg2 : arg2.IsWhole) (arg3 : Memref sig .tc .vmem S1024x512 .bf16) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole)
    (hc0 : ¬cond0_0 i) (hc1 : cond0_1 i)
    (x0 x1 : Vec F S1024x512 .bf16) (x2 : Vec F S1024x1 .f32) (x3 : Vec F S1x1024 .f32) (x4 : Vec F S1024x1024 .i32) (xs0 xs1 : Vec F S1024x1 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
        ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4
            ∗ owns (c : Thread nD τ) arg7 fullShare (k0_pay2 (k0_pay6 x0 x1 x2 x3 x4 xs0) (k0_pay1 (k0_pay5 x4) xs1)) ∗ owns (c : Thread nD τ) arg8 fullShare (k0_pay6 x0 x1 x2 x3 x4 xs0) ∗ owns (c : Thread nD τ) arg9 fullShare (k0_pay1 (k0_pay5 x4) xs1)) -∗ K ⟨⟩))
      ⊢ wp frame (wpE (defs₀ (F := F)) Variants.none c none) E (cc0__neighborhood_kernel i arg2 harg2 arg3 harg3 arg4 harg4 arg5 harg5 arg6 harg6 arg7 harg7 arg8 harg8 arg9 harg9) K := by
  sl_unfold [cc0__neighborhood_kernel, k0_part1]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, ⟨%fs1, %hfs1, HS1⟩, Hk⟩
  obtain rfl := harg2.eq_unread hf0; obtain rfl := harg3.eq_unread hf1; obtain rfl := harg4.eq_unread hf2; obtain rfl := harg5.eq_unread hf3; obtain rfl := harg6.eq_unread hf4
  obtain rfl := harg8.eq_unread hfs0; obtain rfl := harg9.eq_unread hfs1
  sl_exec (disch := first | exact hc0 | exact hc1)
  sl_step
  iapply Hk
  isplitl [H0]
  · iexists _; isplitr
    · ipureintro; exact harg2.read_unread _
    iexact H0
  isplitl [H1]
  · iexists _; isplitr
    · ipureintro; exact harg3.read_unread _
    iexact H1
  isplitl [H2]
  · iexists _; isplitr
    · ipureintro; exact harg4.read_unread _
    iexact H2
  isplitl [H3]
  · iexists _; isplitr
    · ipureintro; exact harg5.read_unread _
    iexact H3
  isplitl [H4]
  · iexists _; isplitr
    · ipureintro; exact harg6.read_unread _
    iexact H4
  isplitl [H5]
  · iexists _; isplitr
    rotate_left
    · iexact H5
    · ipureintro
      sl_unfold_words
      rw [read_writes_whole_cons _ _ hz]
      simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]
  isplitl [HS0]
  · iexists _; isplitr
    rotate_left
    · iexact HS0
    · ipureintro
      sl_unfold_words
      rw [read_writes_whole_cons _ _ hz]
      simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]
  iexists _; isplitr
  rotate_left
  · iexact HS1
  · ipureintro
    sl_unfold_words
    rw [read_writes_whole_cons _ _ hz]
    simp only [View.readCov_unit_zero (S := S1024x1) _ hz, View.readAt_eq_ld, harg2.read_unread, harg3.read_unread, harg4.read_unread, harg5.read_unread, harg6.read_unread, harg8.read_unread, harg9.read_unread,
        View.ld_unit_zero (S := S1024x512) hz, View.ld_unit_zero (S := S1024x1) hz, View.ld_unit_zero (S := S1x1024) hz, View.ld_unit_zero (S := S1024x1024) hz]

end Cert.KernelIdeal.Hand

end
-- ==== Proof.KI.Body.lean ====
/-
  The body obligation of the region: at every grid point, from the region invariant, the inputs' staging
  buffers at their blocks and the output's at anything, the kernel body runs to the invariant of the next
  point — the accumulators at `accAt` —, the inputs' buffers as they were and, at the last column block, the
  output's buffer at the quotient `outAt`.  By cases on the column block (first, middle, last), each the run of
  that case.
-/
import proofs.«101301_j75651553951784_2_alg».proof.Proof.KI.Data
import proofs.«101301_j75651553951784_2_alg».proof.Proof.KI.RunA
import proofs.«101301_j75651553951784_2_alg».proof.Proof.KI.RunB
import proofs.«101301_j75651553951784_2_alg».proof.Proof.KI.RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the body finds in the inputs' staging buffers

An input window is never idle and its body leaves its block in place, so at every point its current staging
buffer holds its block of the array as the region found it, whether the point fetched it or the block index did
not move since the point before. -/

theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)

theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

theorem before0_2 (c : Dev nD) (t : Fin cfg0.N) (d) : (dats m 0 c).before 2 t d = iblk m c 2 t :=
  ((dats m 0 c).before_in_eq_fetched 2 rfl (fun _ => rfl) (fun _ _ _ => rfl)
      (fun t => by rw [after0_2]; unfold Dat.blockOf iblk; rw [A_eq]; try rfl) t d).trans
    (by unfold Dat.fetched Dat.blockOf iblk; rw [A_eq]; try rfl)

theorem before0_3 (c : Dev nD) (t : Fin cfg0.N) (d) : (dats m 0 c).before 3 t d = iblk m c 3 t :=
  ((dats m 0 c).before_in_eq_fetched 3 rfl (fun _ => rfl) (fun _ _ _ => rfl)
      (fun t => by rw [after0_3]; unfold Dat.blockOf iblk; rw [A_eq]; try rfl) t d).trans
    (by unfold Dat.fetched Dat.blockOf iblk; rw [A_eq]; try rfl)

theorem before0_4 (c : Dev nD) (t : Fin cfg0.N) (d) : (dats m 0 c).before 4 t d = iblk m c 4 t :=
  ((dats m 0 c).before_in_eq_fetched 4 rfl (fun _ => rfl) (fun _ _ _ => rfl)
      (fun t => by rw [after0_4]; unfold Dat.blockOf iblk; rw [A_eq]; try rfl) t d).trans
    (by unfold Dat.fetched Dat.blockOf iblk; rw [A_eq]; try rfl)

/-! ## What the body finds in the output's staging buffer

The output window is never fetched; it is written back exactly at the points of the last column block, and is
idle at every other point.  So whatever the point, nothing the body stored is still in the buffer it is handed:
before the first point and after a write-back the buffer is fresh, and through a run of idle points it holds
what it held when the run began.  By induction on the point the buffer holds anything. -/

theorem before0_5_aux (c : Dev nD) (d) : ∀ (n : ℕ) (t : Fin cfg0.N), t.val = n → (dats m 0 c).before 5 t d = d
  | 0, t, ht => (dats m 0 c).before_out_reset 5 rfl t (.inl ht) d
  | n + 1, t, ht => by
    have htz : t.val ≠ 0 := by omega
    by_cases h7 : (t.val - 1) % 8 = 7
    · exact (dats m 0 c).before_out_reset 5 rfl t
        (.inr ⟨htz, (flush0_5 ⟨t.val - 1, (Nat.lt_of_le_of_lt (Nat.sub_le _ _) t.isLt)⟩).mpr h7⟩) d
    · have hnc : ¬cond0_1 (grid0.coords ⟨t.val - 1, (Nat.lt_of_le_of_lt (Nat.sub_le _ _) t.isLt)⟩) :=
        fun h => h7 ((hcond0_1 ⟨t.val - 1, (Nat.lt_of_le_of_lt (Nat.sub_le _ _) t.isLt)⟩).mp h)
      rw [(dats m 0 c).before_of_pos 5 t htz ((cfg0.win 5).fetch_out rfl t) d, noFlush0_5 _ hnc,
        if_neg Bool.false_ne_true]
      unfold Dat.left
      rw [idleAt0_5 _ hnc]
      exact before0_5_aux c d n ⟨t.val - 1, (Nat.lt_of_le_of_lt (Nat.sub_le _ _) t.isLt)⟩ (by show t.val - 1 = n; omega)

theorem before0_5 (c : Dev nD) (t : Fin cfg0.N) (d) : (dats m 0 c).before 5 t d = d :=
  before0_5_aux m c d t.val t rfl

/-! ## What the body leaves in a live window's buffer -/

theorem leaves0_0 (c : Dev nD) (t : Fin cfg0.N) :
    (dats m 0 c).leavesExact 0 t = owns (c : Thread nD τ) (ms0_0 t) fullShare ((dats m 0 c).after 0 t) := by
  unfold Dat.leavesExact; rw [liveAt0_0 t]
theorem leaves0_1 (c : Dev nD) (t : Fin cfg0.N) :
    (dats m 0 c).leavesExact 1 t = owns (c : Thread nD τ) (ms0_1 t) fullShare ((dats m 0 c).after 1 t) := by
  unfold Dat.leavesExact; rw [liveAt0_1 t]
theorem leaves0_2 (c : Dev nD) (t : Fin cfg0.N) :
    (dats m 0 c).leavesExact 2 t = owns (c : Thread nD τ) (ms0_2 t) fullShare ((dats m 0 c).after 2 t) := by
  unfold Dat.leavesExact; rw [liveAt0_2 t]
theorem leaves0_3 (c : Dev nD) (t : Fin cfg0.N) :
    (dats m 0 c).leavesExact 3 t = owns (c : Thread nD τ) (ms0_3 t) fullShare ((dats m 0 c).after 3 t) := by
  unfold Dat.leavesExact; rw [liveAt0_3 t]
theorem leaves0_4 (c : Dev nD) (t : Fin cfg0.N) :
    (dats m 0 c).leavesExact 4 t = owns (c : Thread nD τ) (ms0_4 t) fullShare ((dats m 0 c).after 4 t) := by
  unfold Dat.leavesExact; rw [liveAt0_4 t]
theorem leaves0_5 (c : Dev nD) (t : Fin cfg0.N) (h : cond0_1 (grid0.coords t)) :
    (dats m 0 c).leavesExact 5 t = owns (c : Thread nD τ) (ms0_5 t) fullShare ((dats m 0 c).after 5 t) := by
  unfold Dat.leavesExact; rw [liveAt0_5 t h]

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point.  The inputs' buffers hold their blocks and the output's anything; the column block
    says which of the three runs applies.  At the first column block the accumulators may hold anything (before
    the first point the launch hands them over so; later the point before left them at its sums, which the reset
    forgets) and end at the sums over zero; elsewhere they hold what the point before left and end at the sums over
    that.  The output's buffer is handed back at anything off the last column block and at the quotient on it.  The
    core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl]
  rw [show (dats m 0 c).Φ t.succ = PhiS m c (t.val + 1) t.isLt from rfl, PhiS_succ]
  rw [leaves0_0 m c t, leaves0_1 m c t, leaves0_2 m c t, leaves0_3 m c t, leaves0_4 m c t, after0_0, after0_1, after0_2, after0_3, after0_4]
  have hN : t.val < 64 := lt_of_lt_of_eq t.isLt (show cfg0.N = 64 from N_0)
  by_cases h0 : t.val % 8 = 0
  · -- the first column block
    have hc0 : cond0_0 (grid0.coords t) := (hcond0_0 t).mpr h0
    have hc1 : ¬cond0_1 (grid0.coords t) := fun h => by have := (hcond0_1 t).mp h; omega
    rw [Dat.leavesExact_idle (dats m 0 c) 5 t (idleAt0_5 t hc1) (noFlush0_5 t hc1)]
    simp only [before0_0, before0_1, before0_2, before0_3, before0_4, before0_5]
    rw [accAt_reset m c t h0]; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexists _; iexact HS0
      isplitl [HS1]; · iexists _; iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
  · have hc0 : ¬cond0_0 (grid0.coords t) := fun h => h0 ((hcond0_0 t).mp h)
    have hz : t.val ≠ 0 := by omega
    by_cases h1 : t.val % 8 = 7
    · -- the last column block
      have hc1 : cond0_1 (grid0.coords t) := (hcond0_1 t).mpr h1
      rw [leaves0_5 m c t hc1, after0_5]
      simp only [before0_0, before0_1, before0_2, before0_3, before0_4, before0_5]
      unfold outAt
      rw [accAt_step m c t h0]; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5
    · -- a column block between
      have hc1 : ¬cond0_1 (grid0.coords t) := fun h => h1 ((hcond0_1 t).mp h)
      rw [Dat.leavesExact_idle (dats m 0 c) 5 t (idleAt0_5 t hc1) (noFlush0_5 t hc1)]
      simp only [before0_0, before0_1, before0_2, before0_3, before0_4, before0_5]
      rw [accAt_step m c t h0]; dsimp only
      rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) hc0 hc1 (iblk m c 0 t) (iblk m c 1 t) (iblk m c 2 t) (iblk m c 3 t) (iblk m c 4 t) (accAt m c (t.val - 1) (Nat.lt_of_le_of_lt (Nat.sub_le _ _) t.isLt)).1 (accAt m c (t.val - 1) (Nat.lt_of_le_of_lt (Nat.sub_le _ _) t.isLt)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      iintro ⟨H0, H1, H2, H3, H4, H5, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      iexact H5

/-- The library's body obligation, at every point. -/
theorem body_obligation (c : Dev nD) : BodyObligation (dats (F := F) m 0 c) (defs₀ (F := F)) Variants.none () Set.univ := by
  intro t
  rw [bigSep_W0, bigSep_W0]
  exact sound_body m c t

end Cert.KernelIdeal.Hand

end
-- ==== Proof.KI.Shared.lean ====
/-
  Names shared by the proofs about the region's values: the global row and column an entry of a point's
  blocks sits at, and the buffers' contents when the region is left.

  Point `t` of the 8 × 8 grid is at row block `t / 8` and column block `t % 8`; blocks are 1024 wide, so row
  `r` of its row block is global row `(t / 8) · 1024 + r` and column `cc` of its column block is global column
  `(t % 8) · 1024 + cc`.  When the region is left, the output array holds what the points wrote back and
  every other buffer what it held at entry (the inputs are only read).
-/
import proofs.«101301_j75651553951784_2_alg».proof.Proof.KI.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- The global row of row `r` of point `t`'s row block. -/
def rowOf (t : Fin cfg0.N) (r : Fin 1024) : Fin 8192 :=
  ⟨(t.val / 8) * 1024 + r.val, by have h := t.isLt; have hN : cfg0.N = 64 := N_0; have := r.isLt; omega⟩

/-- The global column of column `cc` of point `t`'s column block. -/
def colOf (t : Fin cfg0.N) (cc : Fin 1024) : Fin 8192 :=
  ⟨(t.val % 8) * 1024 + cc.val, by have := cc.isLt; omega⟩

/-- The buffers' contents when the region is left: the output array at what was written back, every other
    buffer as the region found it. -/
def exitVal (c : Dev nD) : Valuation τ sig (Elt F) := fun b =>
  if h : b = Proc.devRef .tc main_v5 then
    cast (congrArg (fun b' : DevRef τ sig => b'.ty.Contents (Elt F)) h.symm) ((dats m 0 c).arrAt 5 cfg0.N)
  else V0 m c b

/-- The three stretches of host operations after the region, as one list. -/
abbrev tailOps : List (HloOp τ sig (Elt F)) := List.flatten [hostOps1, hostOps1_1, hostOps1_2]

end Cert.KernelIdeal.Hand

end
-- ==== Proof.KI.Launch.lean ====
/-
  The launch: from the body obligation, every weakly fair execution of @main terminates; the result buffer
  ends at what the host operations after the region compute from the buffers as the region leaves them, and the
  two argument arrays end unchanged.

  The embeddings array is handed to the region through two windows.  Its buffer, whole at the full share when
  the region is entered, is split into its two half shares, one per window; the other arrays go to their
  windows whole.  The host operations after the region touch the output array and buffers that bypass the
  region only.
-/
import proofs.«101301_j75651553951784_2_alg».proof.Proof.KI.Shared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays at the region's entry: the embeddings' buffer split between its two windows -/

/-- The buffers behind the six windows' arrays are five: the embeddings array is behind two windows. -/
private theorem bigSep_arrs {M : Type} [URA M] (Φ : Ref sig .tc → sProp M) :
    bigSep (Finset.univ.image (Pipeline.arrRef spec0)) Φ = iprop(Φ main_v4 ∗ Φ main_v2 ∗ Φ main_v3 ∗ Φ main_arg1 ∗ Φ main_v5) :=
  bigSep_eq_bigSepL_of_eq [main_v4, main_v2, main_v3, main_arg1, main_v5] (by decide) (by decide) Φ

/-- The share each window holds its array at: the two halves for the embeddings' windows, the full share elsewhere. -/
private theorem share0_0 (c : Dev nD) : (dats (F := F) m 0 c).share 0 = fullShare.left := by unfold Dat.share; rw [q0_0]; rfl
private theorem share0_1 (c : Dev nD) : (dats (F := F) m 0 c).share 1 = fullShare.right := by unfold Dat.share; rw [q0_1]; rfl
private theorem share0_2 (c : Dev nD) : (dats (F := F) m 0 c).share 2 = fullShare := by unfold Dat.share; rw [q0_2]; rfl
private theorem share0_3 (c : Dev nD) : (dats (F := F) m 0 c).share 3 = fullShare := by unfold Dat.share; rw [q0_3]; rfl
private theorem share0_4 (c : Dev nD) : (dats (F := F) m 0 c).share 4 = fullShare := by unfold Dat.share; rw [q0_4]; rfl
private theorem share0_5 (c : Dev nD) : (dats (F := F) m 0 c).share 5 = fullShare := by unfold Dat.share; rfl

/-- Before the first point every array is at its entry contents. -/
private theorem arrAt_zero (c : Dev nD) (w : Fin cfg0.W) : (dats (F := F) m 0 c).arrAt w 0 = V m c (Pipeline.arrRef spec0 w) := rfl

/-- The operations before the region allocate nothing. -/
private theorem hostOps0_fresh : (hostOps0 : List (HloOp τ sig (Elt F))).Forall fun op => op.fresh = ∅ := by
  simp only [List.Forall]; repeat' constructor

/-- @main is the operations before the region, the region, and the three stretches after it: it reduces to the
    region continued by the stretches, entered at the contents the operations before it leave. -/
private theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1, hostOps1_1, hostOps1_2].map StableHlo.seq)) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The buffers behind the arrays, each whole at the full share at the entry contents, make the windows' arrays at
    entry: the embeddings' buffer gives its left half share to window 0 and its right half share to window 1, every other
    buffer goes whole to its one window. -/
private theorem hsplit (c : Dev nD) : Pipeline.arrBufs spec0 c (V m c) ⊢ (dats (F := F) m 0 c).arrays ((dats m 0 c).arrAt · 0) := by
  unfold Pipeline.arrBufs Dat.arrays
  rw [bigSep_arrs, bigSep_W0]
  simp only [share0_0, share0_1, share0_2, share0_3, share0_4, share0_5, arrAt_zero, View.set_whole]
  iintro ⟨H4, H2, H3, H1, H5⟩
  ihave H4' := (pointsTo_share (PosShare.mem_left_op_right fullShare)).1 $$ H4
  icases H4' with ⟨H4l, H4r⟩
  isplitl [H4l]; · iexact H4l
  isplitl [H4r]; · iexact H4r
  isplitl [H2]; · iexact H2
  isplitl [H3]; · iexact H3
  isplitl [H1]; · iexact H1
  iexact H5

/-! ## The stretches after the region: what they name, what they write -/

/-- Every reference the three stretches after the region name. -/
private abbrev tailL : List (Ref sig .tc) :=
  [main_v5, main_v6, main_cst_0, main_v7, main_v8, main_cst_1, main_arg0, main_v9, main_cst_2, main_v10, main_v11, main_v12,
   main_v13, main_v14, main_call0_v0, main_call0_cst, main_call0_v1, main_v15, main_cst_3, main_v16, main_cst_4, main_v17, main_v18]

/-- Every reference they write: each operation's own result. -/
private abbrev tailW : List (Ref sig .tc) :=
  [main_v6, main_cst_0, main_v7, main_v8, main_cst_1, main_v9, main_cst_2, main_v10, main_v11, main_v12,
   main_v13, main_v14, main_call0_v0, main_call0_cst, main_call0_v1, main_v15, main_cst_3, main_v16, main_cst_4, main_v17, main_v18]

/-- A listed reference's device buffer is in the list's set of device buffers. -/
private theorem mem_devs {L : List (Ref sig .tc)} {r : Ref sig .tc} (h : r ∈ L) :
    Proc.devRef (τ := τ) .tc r ∈ (L.map (Proc.devRef (τ := τ) .tc)).toFinset :=
  List.mem_toFinset.mpr (List.mem_map.mpr ⟨r, h, rfl⟩)

/-- What is asked of an operation after the region: it names listed references only, writes listed results
    only, and allocates nothing. -/
private def TailOp (op : HloOp τ sig (Elt F)) : Prop :=
  op.bufs ⊆ (tailL.map (Proc.devRef (τ := τ) .tc)).toFinset ∧ op.writes ⊆ (tailW.map (Proc.devRef (τ := τ) .tc)).toFinset ∧ op.fresh = ∅

/-- Each operation of the first stretch is such an operation, -/
private theorem hostOps1_tail : (hostOps1 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- each of the second, -/
private theorem hostOps1_1_tail : (hostOps1_1 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- and each of the third. -/
private theorem hostOps1_2_tail : (hostOps1_2 : List (HloOp τ sig (Elt F))).Forall TailOp := by
  simp only [List.Forall, TailOp, StableHlo.nullary_bufs, StableHlo.unary_bufs, StableHlo.binary_bufs, StableHlo.reshape_bufs,
    StableHlo.nullary_writes, StableHlo.unary_writes, StableHlo.binary_writes, StableHlo.reshape_writes,
    Finset.insert_subset_iff, Finset.singleton_subset_iff]
  repeat' constructor
  all_goals exact mem_devs (by decide)

/-- Every operation of the three stretches, stretch by stretch. -/
private theorem tail_stretches : ∀ ops ∈ ([hostOps1, hostOps1_1, hostOps1_2] : List (List (HloOp τ sig (Elt F)))), ∀ op ∈ ops, TailOp op := by
  intro ops hops op hop
  simp only [List.mem_cons, List.mem_nil_iff, or_false] at hops
  rcases hops with rfl | rfl | rfl
  · exact (List.forall_iff_forall_mem.mp hostOps1_tail) op hop
  · exact (List.forall_iff_forall_mem.mp hostOps1_1_tail) op hop
  · exact (List.forall_iff_forall_mem.mp hostOps1_2_tail) op hop

/-- Every operation of the three stretches, as one list. -/
private theorem tail_ops : ∀ op ∈ (tailOps : List (HloOp τ sig (Elt F))), TailOp op := fun op hop => by
  obtain ⟨ops, hops, hop⟩ := List.mem_flatten.mp hop
  exact tail_stretches ops hops op hop

/-- A reference no operation after the region writes keeps its contents through them. -/
private theorem after_tail_of_not_written (W : Valuation τ sig (Elt F)) {r : Ref sig .tc} (hr : r ∉ tailW) :
    StableHlo.after (tailOps (F := F)) W (Proc.devRef .tc r) = W (Proc.devRef .tc r) :=
  StableHlo.after_of_forall_not_mem _ _ fun op hop hb => by
    obtain ⟨y, hy, he⟩ := List.mem_map.mp (List.mem_toFinset.mp ((tail_ops op hop).2.1 hb))
    exact hr (Proc.devRef_injective _ he ▸ hy)

/-! ## The buffers the stretches after the region run within -/

/-- The output array's buffer and the buffers that bypass the region, as device buffers. -/
private def tailS : Finset (DevRef τ sig) :=
  (insert main_v5 (Pipeline.restRefs sig spec0)).map ⟨Proc.devRef (sig := sig) .tc, Proc.devRef_injective _⟩

/-- The output array is a window's array: it does not bypass the region. -/
private theorem main_v5_not_rest : main_v5 ∉ Pipeline.restRefs sig spec0 := fun h =>
  (Finset.mem_sdiff.mp h).2 (Finset.mem_image.mpr ⟨5, Finset.mem_univ _, rfl⟩)

/-- Held at a valuation, they are the output array's buffer and the bypassing buffers at it. -/
private theorem held_tailS (c : Dev nD) (Wv : Valuation τ sig (Elt F)) :
    (StableHlo.held (c.tc : Thread nD τ) tailS Wv : sProp 𝕄)
      = iprop((((c.tc : Thread nD τ).loc main_v5) ↦{fullShare} Wv (Proc.devRef .tc main_v5))
          ∗ bigSep (Pipeline.restRefs sig spec0) fun b => ((c.tc : Thread nD τ).loc b) ↦{fullShare} Wv (Proc.devRef .tc b)) := by
  classical
  unfold StableHlo.held tailS
  rw [bigSep_map, bigSep_insert main_v5_not_rest]
  rfl

/-- Every reference the stretches name is the output array or bypasses the region: none is an input array. -/
private theorem devs_sub_tailS : (tailL.map (Proc.devRef (τ := τ) .tc)).toFinset ⊆ tailS := by
  intro b hb
  obtain ⟨r, hr, rfl⟩ := List.mem_map.mp (List.mem_toFinset.mp hb)
  refine Finset.mem_map_of_mem _ ?_
  have h : ∀ r ∈ tailL, r = main_v5 ∨ (r.isScoped = false ∧ ∀ w, (spec0 w).arr.view.ref ≠ r) := by decide
  rcases h r hr with rfl | ⟨hs, ha⟩
  · exact Finset.mem_insert_self _ _
  · exact Finset.mem_insert_of_mem (Pipeline.mem_restRefs_of r hs ha)

/-- The exit valuation at the output array: what the points wrote back. -/
private theorem exitVal_v5 (c : Dev nD) : exitVal m c (Proc.devRef .tc main_v5) = (dats (F := F) m 0 c).arrAt 5 cfg0.N := by
  unfold exitVal; rw [dif_pos rfl]; rfl

/-- The exit valuation elsewhere: the entry contents. -/
private theorem exitVal_of_ne (c : Dev nD) (b : Ref sig .tc) (hb : b ≠ main_v5) : exitVal m c (Proc.devRef .tc b) = V m c b := by
  unfold exitVal; rw [dif_neg (StableHlo.devRef_ne_of_ne hb)]

/-- What bypasses the region, at the contents the stretches after it leave. -/
private def restAfter (c : Dev nD) : sProp 𝕄 :=
  bigSep (Pipeline.restRefs sig spec0) fun b =>
    ((c.tc : Thread nD τ).loc b) ↦{fullShare} StableHlo.after (tailOps (F := F)) (exitVal m c) (Proc.devRef .tc b)

/-- The bypassing buffers at the exit valuation are at their entry contents. -/
private theorem rest_exit (c : Dev nD) :
    (bigSep (Pipeline.restRefs sig spec0) fun b => ((c.tc : Thread nD τ).loc b) ↦{fullShare} exitVal m c (Proc.devRef .tc b) : sProp 𝕄)
      = Pipeline.unscopedRest spec0 c (V m c) :=
  bigSep_congr fun b hb => by rw [exitVal_of_ne m c b fun e => main_v5_not_rest (e ▸ hb)]

/-- At the region's exit the stretches' buffers are held at the exit valuation: the output array at what was
    written back, the bypassing buffers at the entry contents. -/
private theorem held_exit (c : Dev nD) :
    (StableHlo.held (c.tc : Thread nD τ) tailS (exitVal m c) : sProp 𝕄)
      = iprop((((c.tc : Thread nD τ).loc main_v5) ↦{fullShare} (dats (F := F) m 0 c).arrAt 5 cfg0.N)
          ∗ Pipeline.unscopedRest spec0 c (V m c)) := by
  rw [held_tailS, exitVal_v5, rest_exit]

/-- After the stretches the output array is as the region left it (none of them writes it). -/
private theorem held_exit_after (c : Dev nD) :
    (StableHlo.held (c.tc : Thread nD τ) tailS (StableHlo.after (tailOps (F := F)) (exitVal m c)) : sProp 𝕄)
      = iprop((((c.tc : Thread nD τ).loc main_v5) ↦{fullShare} (dats (F := F) m 0 c).arrAt 5 cfg0.N) ∗ restAfter m c) := by
  rw [held_tailS, after_tail_of_not_written _ (by decide), exitVal_v5]
  rfl

/-! ## The stretches after the region, run -/

set_option backward.isDefEq.respectTransparency.types false in
/-- From the region's exit — the boundary, the windows' arrays at their final contents, the bypassing buffers at
    their entry contents — the three stretches run within the output array and the bypassing buffers, and hand back
    the arrays as they were and the bypassing buffers at what the stretches leave. -/
private theorem htail (𝒱₀ : Variants) (c : Dev nD) (Q' : PUnit → sProp 𝕄) :
    iprop((iprop((dats (F := F) m 0 c).arrays ((dats m 0 c).arrAt · cfg0.N) ∗ restAfter m c) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs (pcfgs (F := F)) defs₀) (Variants.lift 𝒱₀) (c.tc : Thread nD τ) none) Set.univ
          (Pipeline.chain ([hostOps1, hostOps1_1, hostOps1_2].map StableHlo.seq)) Q' := by
  unfold Dat.arrays
  rw [bigSep_W0]
  simp only [share0_0, share0_1, share0_2, share0_3, share0_4, share0_5, View.set_whole]
  rw [← List.append_nil (List.map StableHlo.seq _)]
  iintro ⟨Hk, Hb, ⟨A0, A1, A2, A3, A4, A5⟩, HZ⟩
  ihave Hh := (Entails.of_eq (held_exit m c).symm) $$ [A5 HZ]
  · isplitl [A5] <;> iassumption
  iapply (Pipeline.wp_seqs_then pcfgs defs₀ 𝒱₀ c tailS [] [hostOps1, hostOps1_1, hostOps1_2]
    (fun ops hops op hop => ((tail_stretches ops hops op hop).1).trans devs_sub_tailS)
    (fun ops hops op hop => (tail_stretches ops hops op hop).2.2) (exitVal m c)) $$ [Hb Hh]
  · isplitl [Hb] <;> iassumption
  iintro Hb
  rw [Pipeline.chain_nil, wp_pure, held_exit_after]
  imodintro
  iapply Hk
  icases Hb with ⟨-, A5, HZ⟩
  isplitr [HZ]
  · isplitl [A0]; · iexact A0
    isplitl [A1]; · iexact A1
    isplitl [A2]; · iexact A2
    isplitl [A3]; · iexact A3
    isplitl [A4]; · iexact A4
    iexact A5
  · iexact HZ

/-! ## The invariant at the region's ends -/

/-- Before the first point the invariant is what the launch hands over. -/
private theorem Phi_first (c : Dev nD) : (dats (F := F) m 0 c).Φ 0 = Pipeline.ΦA spec0 c := PhiS_zero m c 0 (Nat.zero_le _) rfl

/-- After the last point the invariant gives back what the launch handed over: the accumulators' contents are forgotten. -/
private theorem Phi_last (c : Dev nD) : (dats (F := F) m 0 c).Φ (Fin.last cfg0.N) ⊢ Pipeline.ΦA spec0 c := by
  have h : (dats (F := F) m 0 c).Φ (Fin.last cfg0.N) = PhiS m c cfg0.N (Nat.le_refl _) := rfl
  have h64 : cfg0.N = 64 := N_0
  rw [h, PhiS_pos m c cfg0.N _ (by omega), PhiA0_eq]
  iintro ⟨⟨H0, H1⟩, Hp⟩
  isplitr [Hp]
  · isplitl [H0]
    · iexists _; iexact H0
    · iexists _; iexact H1
  · iexact Hp

/-! ## What the host operations before the region leave alone -/

/-- The references the operations before the region write: each its own result. -/
private abbrev headW : List (Ref sig .tc) := [main_v0, main_cst, main_v1, main_v2, main_v3, main_v4]

/-- Each operation before the region writes a listed reference only. -/
private theorem hostOps0_writes : (hostOps0 : List (HloOp τ sig (Elt F))).Forall fun op => op.writes ⊆ (headW.map (Proc.devRef (τ := τ) .tc)).toFinset := by
  simp only [List.Forall, StableHlo.nullary_writes, StableHlo.unary_writes, StableHlo.binary_writes, StableHlo.reshape_writes,
    Finset.singleton_subset_iff]
  repeat' constructor
  all_goals exact mem_devs (by decide)

/-- A buffer no operation before the region writes is entered at its launch contents. -/
private theorem V_of_not_written (c : Dev nD) {r : Ref sig .tc} (hr : r ∉ headW) : V m c r = m ((c.tc : Thread nD τ).loc r) := by
  show StableHlo.after (List.flatten [hostOps0]) (fun b => m (c, b)) (Proc.devRef .tc r) = _
  rw [List.flatten_cons, List.flatten_nil, List.append_nil]
  exact StableHlo.after_of_writes_sub (hostOps0 (F := F)) _ hostOps0_writes hr

/-! ## The run -/

set_option backward.isDefEq.respectTransparency.types false in
/-- The run of @main, given the body obligation. -/
theorem run_main_of (hbody : ∀ c : Dev nD, BodyObligation (dats (F := F) m 0 c) (defs₀ (F := F)) Variants.none () Set.univ) :
    θ_run defs (onTc (τ := τ) (main (F := F))) ⟨m, fun _ => 0, ρ⟩ (fun r => ∀ c : Dev nD,
      r.2.mem ((c.tc : Thread nD τ).loc main_v18) = StableHlo.after (tailOps (F := F)) (exitVal m c) (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  classical
  exact Pipeline.θ_run_region_pf_tail (pcfgs (F := F)) (fun p => (cfgs p).toPCfg_adm) (dats m) () cellOf_inj 0 winFacts₀0
    (Pipeline.OwnSemFacts.none spec0) (Pipeline.PreFacts.none _) emb₁ defs₀ Variants.none m ρ main
    (fun _ => Pipeline.chain ([hostOps1, hostOps1_1, hostOps1_2].map StableHlo.seq)) (fun c => (hbody c).loose)
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none) (hsplit := hsplit m) (hpf := fun _ k => k.elim0)
    (X := fun c => iprop(∃ r, prngReg c r)) (Y := fun c => iprop(∃ r, prngReg c r))
    (Z := fun c => Pipeline.unscopedRest spec0 c (V m c)) (Z' := restAfter m)
    (hX := fun c => by
      rw [Pipeline.unscopedRestP_none]
      iintro ⟨HU, -, -, -, Hp, -⟩; imodintro
      isplitl [Hp]; · iexists _; iexact Hp
      iexact HU)
    (hin := fun c => by
      rw [Phi_first]; unfold Pipeline.ΦA
      iintro ⟨Hp, -, Hr⟩
      isplitl [Hr] <;> iassumption)
    (hout := fun c => (Phi_last m c).trans (by
      rw [Pipeline.ownSems0_none]; unfold Pipeline.ΦA
      iintro ⟨Hr, Hp⟩
      isplitl [Hp]; · iexact Hp
      isplitr; · iempintro
      iexact Hr))
    (htail := htail m Variants.none)
    (QY := fun c s => ∀ b ∈ Pipeline.restRefs sig spec0,
      s.mem ((c.tc : Thread nD τ).loc b) = StableHlo.after (tailOps (F := F)) (exitVal m c) (Proc.devRef .tc b))
    (hY := fun c s' => by
      iintro ⟨-, HU, HSI⟩
      unfold restAfter
      imodintro
      iapply (pointsTo_read_all (Pipeline.restRefs sig spec0) (fun b => (c.tc : Thread nD τ).loc b)
        (fun b => StableHlo.after (tailOps (F := F)) (exitVal m c) (Proc.devRef .tc b)) s')
      isplitl [HU] <;> iassumption)
    (hQ := fun s h c => by
      obtain ⟨harrs, -, hrest⟩ := h c
      refine ⟨hrest main_v18 (Pipeline.mem_restRefs_of _ (by decide) (by decide)), ?_, ?_⟩
      · rw [hrest main_arg0 (Pipeline.mem_restRefs_of _ (by decide) (by decide)), after_tail_of_not_written _ (by decide),
          exitVal_of_ne m c _ (by decide), V_of_not_written m c (by decide)]
      · exact (harrs 4).trans (((dats m 0 c).arrAt_in 4 rfl _).trans ((A_eq m c 4).trans (V_of_not_written m c (by decide)))))

end Cert.KernelIdeal.Hand

end
-- ==== Proof.Spec.lean ====
/-
  The mathematics both programs compute, over the extended reals, on plain index types.

  For an embedding matrix `e : Fin 8192 → Fin 512 → EReal` and an adjacency matrix already read as
  numbers `a : Fin 8192 → Fin 8192 → EReal`:
    sq i      = Σ_d e i d · e i d                       (a row's squared norm)
    gram i j  = Σ_d e i d · e j d                       (the Gram matrix)
    dist i j  = √ (max (max 0 (sq i + sq j − 2·gram i j)) ε)
    x i j     = dist i j · a i j                        (a weighted distance)
    deg i     = Σ_j a i j                               (a row's degree)
  The kernel divides a ROW SUM by the degree, `(Σ_j x i j) / deg i`, and sums the rows; the reference divides
  EVERY ENTRY by its row's degree, `x i j / deg i`, and sums all entries.  The two agree when every `x i j`
  is a real number and no degree is zero (division by a nonzero real is multiplication by its reciprocal,
  which distributes over a finite sum of reals); at a zero degree they differ (`r / 0` is an infinity of
  `r`'s sign, and `⊤ + ⊥ = ⊥`).
  The second summand of both results is the same compactness term `comp e`: the sum over rows of the
  distance of the row to the mean row.
  The float literals are kept as the words the programs print: `two` is 2.0, `eps` the f32 nearest 1e-12,
  `nRows` 8192.0, `hundredth` the f32 nearest 0.01.
-/
import Idealize.ShloMosaic.PureOps.Ideal
import Idealize.ShloMosaic.Lib.ValueIdx

noncomputable section

namespace Cert.Spec

open Idealize.ShloMosaic

abbrev two : EReal := Ideal.ofBits .f32 0x40000000#32
abbrev eps : EReal := Ideal.ofBits .f32 0x2B8CBCCC#32
abbrev nRows : EReal := Ideal.ofBits .f32 0x46000000#32
abbrev hundredth : EReal := Ideal.ofBits .f32 0x3C23D70A#32

variable (e : Fin 8192 → Fin 512 → EReal) (a : Fin 8192 → Fin 8192 → EReal)

/-- A row's squared norm. -/
def sq (i : Fin 8192) : EReal := ∑ d : Fin 512, e i d * e i d

/-- The Gram matrix. -/
def gram (i j : Fin 8192) : EReal := ∑ d : Fin 512, e i d * e j d

/-- The clipped, floored pairwise distance. -/
def dist (i j : Fin 8192) : EReal :=
  Ideal.sqrt (max (max 0 (sq e i + sq e j - two * gram e i j)) eps)

/-- A distance weighted by the adjacency entry. -/
def x (i j : Fin 8192) : EReal := dist e i j * a i j

/-- A row's degree. -/
def deg (i : Fin 8192) : EReal := ∑ j : Fin 8192, a i j

/-- The kernel's value of row `i`: the row's sum of weighted distances over its degree. -/
def kernelRow (i : Fin 8192) : EReal := Ideal.div (∑ j : Fin 8192, x e a i j) (deg a i)

/-- The kernel's neighbourhood term: minus the sum of the rows' values. -/
def kernelNb : EReal := -(∑ i : Fin 8192, kernelRow e a i)

/-- The reference's neighbourhood term: minus the sum over all entries of the weighted distance over its
    row's degree. -/
def refNb : EReal := -(∑ i : Fin 8192, ∑ j : Fin 8192, Ideal.div (x e a i j) (deg a i))

/-- The mean row. -/
def center (d : Fin 512) : EReal := Ideal.div (∑ i : Fin 8192, e i d) nRows

/-- A row's distance to the mean row. -/
def nrm (i : Fin 8192) : EReal :=
  Ideal.sqrt (∑ d : Fin 512, (e i d - center e d) * (e i d - center e d))

/-- The compactness term. -/
def comp : EReal := ∑ i : Fin 8192, nrm e i

/-- The embeddings array read as a matrix of extended reals. -/
def eOf (arr : FVec Ideal ⟨2, ![8192, 512]⟩ .f32) : Fin 8192 → Fin 512 → EReal :=
  fun i d => arr (ValueIdx.ix2 i d)

/-- The adjacency array's integers read as numbers (signed, exactly). -/
def aOf (adj : IVec ⟨2, ![8192, 8192]⟩ 32) : Fin 8192 → Fin 8192 → EReal :=
  fun i j => (((adj (ValueIdx.ix2 i j)).toInt : ℝ) : EReal)

/-- The kernel's result. -/
def kernelLoss : EReal := kernelNb e a + hundredth * comp e

/-- The reference's result. -/
def refLoss : EReal := refNb e a + hundredth * comp e

end Cert.Spec

end
-- ==== Proof.KI.Payload.lean ====
/-
  The body's arithmetic read at an index, over the extended reals.

  Row `r` of the new numerator accumulator is the old one plus the sum over the block's columns of the
  clipped, floored distance times the adjacency entry; the distance's squared form is the row's squared norm
  plus the column's minus twice the inner product of the two embedding rows (the matrix product against the
  transposed block).  Row `r` of the new degree accumulator is the old one plus the row's sum of adjacency
  entries.  The stored output is their quotient, entry by entry; a reset is the zero vector.
-/
import proofs.«101301_j75651553951784_2_alg».proof.Proof.Gen.KernelIdeal.Skeleton
import proofs.«101301_j75651553951784_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

/-- A vector cast to a column reads, at `(i, u)`, the vector at `i`. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast over many columns reads, at `(p, c)`, the column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the rows of a square block, read at row `r`. -/
private theorem laneSum_apply (v : FVec Ideal S1024x1024 .f32) (r : Fin 1024) :
    multiReduction (F := Ideal) .add [1] S1024 v 0x00000000#32 reduces_S1024x1024_S1024 (.inl rfl) rfl (ix1 r)
      = ∑ k : Fin 1024, v (ix2 r k) := by
  refine (Ideal.multiReduction_add_single v _ reduces_S1024x1024_S1024 (.inl rfl) rfl (ix1 r)).trans ?_
  refine Finset.sum_congr rfl fun k _ => ?_
  exact congrArg v (funext fun a => Fin.ext (by match a with | ⟨0, _⟩ => rfl | ⟨1, _⟩ => rfl))

/-- The row sums stored as a column, read at `(r, 0)`. -/
private theorem laneSumCol_apply (v : FVec Ideal S1024x1024 .f32) (r : Fin 1024) :
    shapeCast S1024x1 (multiReduction (F := Ideal) .add [1] S1024 v 0x00000000#32 reduces_S1024x1024_S1024 (.inl rfl) rfl)
        shapeCasts_S1024_S1024x1 (ix2 r (0 : Fin 1))
      = ∑ k : Fin 1024, v (ix2 r k) :=
  (shapeCast_a_a1_apply _ shapeCasts_S1024_S1024x1 r 0).trans (laneSum_apply v r)

/-- The product's operand indices at an output index and a contraction index, coordinate by coordinate:
    the left operand is read at (row, contraction), the right one at (contraction, column). -/
private theorem lhs_gram_0 (i : S1024x1024.Idx) (q : dot_S1024x512_S512x1024_S1024x1024_1_0_0_1_n_n.contr.Idx) :
    (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
private theorem lhs_gram_1 (i : S1024x1024.Idx) (q : dot_S1024x512_S512x1024_S1024x1024_1_0_0_1_n_n.contr.Idx) :
    (dot_S1024x512_S512x1024_S1024x1024_1_0_0_1_n_n.lhsIdx i q 1).val = (q ⟨0, by decide⟩).val :=
  dot_S1024x512_S512x1024_S1024x1024_1_0_0_1_n_n.lhsIdx_val_of_single rfl i q
private theorem rhs_gram_0 (i : S1024x1024.Idx) (q : dot_S1024x512_S512x1024_S1024x1024_1_0_0_1_n_n.contr.Idx) :
    (dot_S1024x512_S512x1024_S1024x1024_1_0_0_1_n_n.rhsIdx i q 0).val = (q ⟨0, by decide⟩).val :=
  dot_S1024x512_S512x1024_S1024x1024_1_0_0_1_n_n.rhsIdx_val_of_single rfl i q
private theorem rhs_gram_1 (i : S1024x1024.Idx) (q : dot_S1024x512_S512x1024_S1024x1024_1_0_0_1_n_n.contr.Idx) :
    (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-- The matrix product into a zero accumulator, read at `(r, c)`: the sum over the contracted axis. -/
private theorem gram_apply (l : FVec Ideal S1024x512 .bf16) (rt : FVec Ideal S512x1024 .bf16) (r cc : Fin 1024) :
    matmul dot_S1024x512_S512x1024_S1024x1024_1_0_0_1_n_n none l rt (constant (F := Ideal) S1024x1024 .f32 0x00000000#32) (ix2 r cc)
      = ∑ k : Fin 512, l (ix2 r k) * rt (ix2 k cc) := by
  simp only [matmul]
  rw [Ideal.matmul_constant_zero_apply, ← Equiv.sum_comp (ValueIdx.contrEquiv1 dot_S1024x512_S512x1024_S1024x1024_1_0_0_1_n_n 512 rfl rfl).symm]
  refine Finset.sum_congr rfl fun k _ => ?_
  have hk := ValueIdx.contrEquiv1_symm_val dot_S1024x512_S512x1024_S1024x1024_1_0_0_1_n_n 512 rfl rfl k
  have el : dot_S1024x512_S512x1024_S1024x1024_1_0_0_1_n_n.lhsIdx (ix2 r cc) ((ValueIdx.contrEquiv1 dot_S1024x512_S512x1024_S1024x1024_1_0_0_1_n_n 512 rfl rfl).symm k) = ix2 r k := funext fun a => Fin.ext (by
    match a with
    | ⟨0, _⟩ => exact lhs_gram_0 _ _
    | ⟨1, _⟩ => exact (lhs_gram_1 _ _).trans hk)
  have er : dot_S1024x512_S512x1024_S1024x1024_1_0_0_1_n_n.rhsIdx (ix2 r cc) ((ValueIdx.contrEquiv1 dot_S1024x512_S512x1024_S1024x1024_1_0_0_1_n_n 512 rfl rfl).symm k) = ix2 k cc := funext fun a => Fin.ext (by
    match a with
    | ⟨0, _⟩ => exact (rhs_gram_0 _ _).trans hk
    | ⟨1, _⟩ => exact rhs_gram_1 _ _)
  rw [el, er]

/-- The product against the transposed block: the inner product of row `r` of one block and row `c` of the other. -/
private theorem gramT_apply (l m : FVec Ideal S1024x512 .bf16) (r cc : Fin 1024) :
    matmul dot_S1024x512_S512x1024_S1024x1024_1_0_0_1_n_n none l (transpose S512x1024 [1, 0] m transposes_S1024x512_p1_0_S512x1024)
        (constant (F := Ideal) S1024x1024 .f32 0x00000000#32) (ix2 r cc)
      = ∑ k : Fin 512, l (ix2 r k) * m (ix2 cc k) := by
  refine (gram_apply l _ r cc).trans ?_
  refine Finset.sum_congr rfl fun k _ => ?_
  exact congrArg (l (ix2 r k) * ·) (transpose_ix2_apply m transposes_S1024x512_p1_0_S512x1024 k cc)

theorem pay6_apply (x0 x1 : Vec Ideal S1024x512 .bf16) (x2 : Vec Ideal S1024x1 .f32) (x3 : Vec Ideal S1x1024 .f32)
    (x4 : Vec Ideal S1024x1024 .i32) (xs : Vec Ideal S1024x1 .f32) (r : Fin 1024) :
    k0_pay6 (F := Ideal) x0 x1 x2 x3 x4 xs (ix2 r (0 : Fin 1))
      = xs (ix2 r (0 : Fin 1)) + ∑ cc : Fin 1024,
          Ideal.sqrt (max (max 0 (x2 (ix2 r (0 : Fin 1)) + x3 (ix2 (0 : Fin 1) cc)
              - Cert.Spec.two * ∑ d : Fin 512, x0 (ix2 r d) * x1 (ix2 cc d))) Cert.Spec.eps)
            * (((BitVec.toInt (x4 (ix2 r cc)) : ℤ) : ℝ) : EReal) := by
  unfold k0_pay6 k0_pay5
  simp only [shapeCast_self]
  refine (addf_apply _ _ _).trans ?_
  refine congrArg (xs (ix2 r (0 : Fin 1)) + ·) ?_
  refine (laneSumCol_apply _ r).trans ?_
  refine Finset.sum_congr rfl fun cc _ => ?_
  refine (mulf_apply _ _ _).trans ?_
  refine congrArg₂ (· * ·) ?_ rfl
  show Ideal.sqrt _ = Ideal.sqrt _
  refine congrArg Ideal.sqrt ?_
  refine (maximumf_apply _ _ _).trans ?_
  refine congrArg₂ max ?_ rfl
  refine (maximumf_apply _ _ _).trans ?_
  refine congrArg₂ max ?_ ?_
  · exact Ideal.ofBits_zero_f32
  refine (subf_apply _ _ _).trans ?_
  refine congrArg₂ (· - ·) ?_ ?_
  · refine (addf_apply _ _ _).trans ?_
    exact congrArg₂ (· + ·) (broadcastTo_a1_ab_apply _ _ r cc) (broadcastTo_1b_ab_apply _ _ r cc)
  · refine (mulf_apply _ _ _).trans ?_
    exact congrArg₂ (· * ·) rfl (gramT_apply x0 x1 r cc)

theorem pay1_apply (x4 : Vec Ideal S1024x1024 .i32) (xs : Vec Ideal S1024x1 .f32) (r : Fin 1024) :
    k0_pay1 (F := Ideal) (k0_pay5 x4) xs (ix2 r (0 : Fin 1))
      = xs (ix2 r (0 : Fin 1)) + ∑ cc : Fin 1024, (((BitVec.toInt (x4 (ix2 r cc)) : ℤ) : ℝ) : EReal) := by
  unfold k0_pay1
  rw [shapeCast_self]
  refine (addf_apply _ _ _).trans ?_
  refine congrArg (xs (ix2 r (0 : Fin 1)) + ·) ?_
  refine (laneSumCol_apply _ r).trans ?_
  rfl

theorem pay2_apply (n d : Vec Ideal S1024x1 .f32) (y : S1024x1.Idx) :
    k0_pay2 (F := Ideal) n d y = Ideal.div (n y) (d y) := by
  rfl

theorem pay3_apply (y : S1024x1.Idx) : k0_pay3 (F := Ideal) y = 0 := by
  unfold k0_pay3
  rw [shapeCast_self]
  exact Ideal.ofBits_zero_f32

theorem pay4_apply (y : S1024x1.Idx) : k0_pay4 (F := Ideal) y = 0 := by
  unfold k0_pay4
  rw [shapeCast_self]
  exact Ideal.ofBits_zero_f32

end Cert.KernelIdeal.Hand

end
-- ==== Proof.KI.Blocks.lean ====
/-
  The windows' blocks at an index, over the extended reals, in terms of the two argument arrays.

  When the region is entered the converted embeddings array is the embeddings array itself (a change of float
  format is the identity on the extended reals), the two reshaped arrays hold the rows' squared norms, and
  the adjacency array is the argument.  A block's entry sits at block index × block size + the offset inside
  the block: the row block is `t / 8`, the column block `t % 8`.
-/
import proofs.«101301_j75651553951784_2_alg».proof.Proof.KI.Shared
import proofs.«101301_j75651553951784_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable (m : (ℓ : Loc nD τ sig) → Buf (Elt Ideal) ℓ)

/-- The embeddings argument of core `c`, as a matrix. -/
abbrev eArg (c : Dev nD) : Fin 8192 → Fin 512 → EReal := Cert.Spec.eOf (m ((c.tc : Thread nD τ).loc main_arg0))
/-- The adjacency argument of core `c`, as numbers. -/
abbrev aArg (c : Dev nD) : Fin 8192 → Fin 8192 → EReal := Cert.Spec.aOf (m ((c.tc : Thread nD τ).loc main_arg1))

/-! ## The index maps over the grid -/

/-- Each window's block index at point `t`: the row block is `t / 8`, the column block `t % 8`. -/
private theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = t.val % 8 :=
  (by decide +kernel : ∀ t : Fin grid0.N, _)

/-! ## A block's entry is the array's entry at block index × block size + offset -/

private theorem blk0_read (c : Dev nD) (t : Fin cfg0.N) (r : Fin 1024) (d : Fin 512) :
    iblk (F := Ideal) m c 0 t (ix2 r d) = V m c main_v4 (ix2 (rowOf t r) d) := by
  unfold iblk
  show V m c main_v4 (((cfg0.win 0).blk t).view.emb (ix2 r d)) = V m c main_v4 (ix2 (rowOf t r) d)
  obtain ⟨e0, e1, -⟩ := idx_facts t
  refine congrArg (V m c main_v4) (funext fun a => Fin.ext ?_)
  match a with
  | ⟨0, _⟩ => show win0_0.index t (0 : Fin 2) * 1024 + 1 * r.val = (t.val / 8) * 1024 + r.val; rw [e0]; omega
  | ⟨1, _⟩ => show win0_0.index t (1 : Fin 2) * 512 + 1 * d.val = d.val; rw [e1]; omega

private theorem blk1_read (c : Dev nD) (t : Fin cfg0.N) (cc : Fin 1024) (d : Fin 512) :
    iblk (F := Ideal) m c 1 t (ix2 cc d) = V m c main_v4 (ix2 (colOf t cc) d) := by
  unfold iblk
  show V m c main_v4 (((cfg0.win 1).blk t).view.emb (ix2 cc d)) = V m c main_v4 (ix2 (colOf t cc) d)
  obtain ⟨-, -, e0, e1, -⟩ := idx_facts t
  refine congrArg (V m c main_v4) (funext fun a => Fin.ext ?_)
  match a with
  | ⟨0, _⟩ => show win0_1.index t (0 : Fin 2) * 1024 + 1 * cc.val = (t.val % 8) * 1024 + cc.val; rw [e0]; omega
  | ⟨1, _⟩ => show win0_1.index t (1 : Fin 2) * 512 + 1 * d.val = d.val; rw [e1]; omega

private theorem blk2_read (c : Dev nD) (t : Fin cfg0.N) (r : Fin 1024) :
    iblk (F := Ideal) m c 2 t (ix2 r (0 : Fin 1)) = V m c main_v2 (ix2 (rowOf t r) (0 : Fin 1)) := by
  unfold iblk
  show V m c main_v2 (((cfg0.win 2).blk t).view.emb (ix2 r (0 : Fin 1))) = V m c main_v2 (ix2 (rowOf t r) (0 : Fin 1))
  obtain ⟨-, -, -, -, e0, e1, -⟩ := idx_facts t
  refine congrArg (V m c main_v2) (funext fun a => Fin.ext ?_)
  match a with
  | ⟨0, _⟩ => show win0_2.index t (0 : Fin 2) * 1024 + 1 * r.val = (t.val / 8) * 1024 + r.val; rw [e0]; omega
  | ⟨1, _⟩ => show win0_2.index t (1 : Fin 2) * 1 + 1 * 0 = 0; rw [e1]

private theorem blk3_read (c : Dev nD) (t : Fin cfg0.N) (cc : Fin 1024) :
    iblk (F := Ideal) m c 3 t (ix2 (0 : Fin 1) cc) = V m c main_v3 (ix2 (0 : Fin 1) (colOf t cc)) := by
  unfold iblk
  show V m c main_v3 (((cfg0.win 3).blk t).view.emb (ix2 (0 : Fin 1) cc)) = V m c main_v3 (ix2 (0 : Fin 1) (colOf t cc))
  obtain ⟨-, -, -, -, -, -, e0, e1, -⟩ := idx_facts t
  refine congrArg (V m c main_v3) (funext fun a => Fin.ext ?_)
  match a with
  | ⟨0, _⟩ => show win0_3.index t (0 : Fin 2) * 1 + 1 * 0 = 0; rw [e0]
  | ⟨1, _⟩ => show win0_3.index t (1 : Fin 2) * 1024 + 1 * cc.val = (t.val % 8) * 1024 + cc.val; rw [e1]; omega

private theorem blk4_read (c : Dev nD) (t : Fin cfg0.N) (r cc : Fin 1024) :
    iblk (F := Ideal) m c 4 t (ix2 r cc) = V m c main_arg1 (ix2 (rowOf t r) (colOf t cc)) := by
  unfold iblk
  show V m c main_arg1 (((cfg0.win 4).blk t).view.emb (ix2 r cc)) = V m c main_arg1 (ix2 (rowOf t r) (colOf t cc))
  obtain ⟨-, -, -, -, -, -, -, -, e0, e1⟩ := idx_facts t
  refine congrArg (V m c main_arg1) (funext fun a => Fin.ext ?_)
  match a with
  | ⟨0, _⟩ => show win0_4.index t (0 : Fin 2) * 1024 + 1 * r.val = (t.val / 8) * 1024 + r.val; rw [e0]; omega
  | ⟨1, _⟩ => show win0_4.index t (1 : Fin 2) * 1024 + 1 * cc.val = (t.val % 8) * 1024 + cc.val; rw [e1]; omega

/-! ## What the arrays hold when the region is entered -/

/-- The converted embeddings array is the embeddings argument. -/
private theorem V_v4 (c : Dev nD) :
    (V m c main_v4 : S8192x512.Idx → EReal) = (m ((c.tc : Thread nD τ).loc main_arg0) : S8192x512.Idx → EReal) := by
  dsimp only [V, V0]
  simp only [hostOps0, List.flatten_cons, List.flatten_nil, List.append_nil]
  after_results
  rfl

/-- The adjacency array is the adjacency argument. -/
private theorem V_arg1 (c : Dev nD) :
    (V m c main_arg1 : S8192x8192.Idx → BitVec 32) = (m ((c.tc : Thread nD τ).loc main_arg1) : S8192x8192.Idx → BitVec 32) := by
  dsimp only [V, V0]
  simp only [hostOps0, List.flatten_cons, List.flatten_nil, List.append_nil]
  after_results

/-- The column of squared norms: the rows' sums of squares, reshaped. -/
private theorem V_v2 (c : Dev nD) :
    (V m c main_v2 : S8192x1.Idx → EReal) = shapeCast S8192x1 (Host.reduceAdd (F := Ideal) (mulf (m ((c.tc : Thread nD τ).loc main_arg0) : FVec Ideal S8192x512 .f32) (m ((c.tc : Thread nD τ).loc main_arg0))) (constant (F := Ideal) S_ .f32 0x00000000#32) Facts₀.reducesTo_S8192x512_S8192_d1 Facts₀.h_S_) Facts₀.shapeCasts_S8192_S8192x1 := by
  dsimp only [V, V0]
  simp only [hostOps0, List.flatten_cons, List.flatten_nil, List.append_nil]
  after_results
  rfl

/-- The row of squared norms: the same sums, reshaped the other way. -/
private theorem V_v3 (c : Dev nD) :
    (V m c main_v3 : S1x8192.Idx → EReal) = shapeCast S1x8192 (Host.reduceAdd (F := Ideal) (mulf (m ((c.tc : Thread nD τ).loc main_arg0) : FVec Ideal S8192x512 .f32) (m ((c.tc : Thread nD τ).loc main_arg0))) (constant (F := Ideal) S_ .f32 0x00000000#32) Facts₀.reducesTo_S8192x512_S8192_d1 Facts₀.h_S_) Facts₀.shapeCasts_S8192_S1x8192 := by
  dsimp only [V, V0]
  simp only [hostOps0, List.flatten_cons, List.flatten_nil, List.append_nil]
  after_results
  rfl

/-! ## The reshaped row sums at an index -/

/-- A row's sum of squares, read off the reshaped column of row sums. -/
private theorem sumsq_col (x : FVec Ideal S8192x512 .f32) (h1 : S8192x512.ReducesTo [1] S8192) (h0 : 0 < S_.numel)
    (hc : S8192.ShapeCasts S8192x1) (i : Fin 8192) :
    shapeCast S8192x1 (Host.reduceAdd (F := Ideal) (mulf x x) (constant (F := Ideal) S_ .f32 0x00000000#32) h1 h0) hc (ix2 i (0 : Fin 1))
      = ∑ d : Fin 512, x (ix2 i d) * x (ix2 i d) := by
  rw [shapeCast_apply _ hc (ix2 i (0 : Fin 1)) (ix1 i) (by
    rw [Shape.rowMajor_val_one, Shape.rowMajor_val_two]; show i.val = i.val * 1 + 0; omega)]
  simp only [Host.reduceAdd, Ideal.hostReduceAdd_def]
  rw [Ideal.hostReduceAdd_single h1 (by decide)]
  show Ideal.ofBits .f32 0x00000000#32 + _ = _
  rw [Ideal.ofBits_zero_f32, zero_add]
  refine Finset.sum_congr rfl fun k _ => ?_
  show x _ * x _ = _
  have e : (Shape.Reduces.lift (s := S8192x512) (t := S8192) (a := (1 : Fin 2)) (by decide) (ix1 i) k) = ix2 i k :=
    funext fun a => Fin.ext (by match a with | ⟨0, _⟩ => rfl | ⟨1, _⟩ => rfl)
  rw [e]; rfl

/-- The same, read off the reshaped row of row sums. -/
private theorem sumsq_row (x : FVec Ideal S8192x512 .f32) (h1 : S8192x512.ReducesTo [1] S8192) (h0 : 0 < S_.numel)
    (hc : S8192.ShapeCasts S1x8192) (i : Fin 8192) :
    shapeCast S1x8192 (Host.reduceAdd (F := Ideal) (mulf x x) (constant (F := Ideal) S_ .f32 0x00000000#32) h1 h0) hc (ix2 (0 : Fin 1) i)
      = ∑ d : Fin 512, x (ix2 i d) * x (ix2 i d) := by
  rw [shapeCast_apply _ hc (ix2 (0 : Fin 1) i) (ix1 i) (by
    rw [Shape.rowMajor_val_one, Shape.rowMajor_val_two]; show i.val = 0 * 8192 + i.val; omega)]
  simp only [Host.reduceAdd, Ideal.hostReduceAdd_def]
  rw [Ideal.hostReduceAdd_single h1 (by decide)]
  show Ideal.ofBits .f32 0x00000000#32 + _ = _
  rw [Ideal.ofBits_zero_f32, zero_add]
  refine Finset.sum_congr rfl fun k _ => ?_
  show x _ * x _ = _
  have e : (Shape.Reduces.lift (s := S8192x512) (t := S8192) (a := (1 : Fin 2)) (by decide) (ix1 i) k) = ix2 i k :=
    funext fun a => Fin.ext (by match a with | ⟨0, _⟩ => rfl | ⟨1, _⟩ => rfl)
  rw [e]; rfl

/-! ## The blocks at an index -/

theorem iblk0_apply (c : Dev nD) (t : Fin cfg0.N) (r : Fin 1024) (d : Fin 512) :
    iblk (F := Ideal) m c 0 t (ix2 r d) = eArg m c (rowOf t r) d := by
  refine (blk0_read m c t r d).trans ?_
  exact congrFun (V_v4 m c) _

theorem iblk1_apply (c : Dev nD) (t : Fin cfg0.N) (cc : Fin 1024) (d : Fin 512) :
    iblk (F := Ideal) m c 1 t (ix2 cc d) = eArg m c (colOf t cc) d := by
  refine (blk1_read m c t cc d).trans ?_
  exact congrFun (V_v4 m c) _

theorem iblk2_apply (c : Dev nD) (t : Fin cfg0.N) (r : Fin 1024) :
    iblk (F := Ideal) m c 2 t (ix2 r (0 : Fin 1)) = Cert.Spec.sq (eArg m c) (rowOf t r) := by
  refine (blk2_read m c t r).trans ?_
  refine (congrFun (V_v2 m c) _).trans ?_
  exact sumsq_col _ _ _ _ (rowOf t r)

theorem iblk3_apply (c : Dev nD) (t : Fin cfg0.N) (cc : Fin 1024) :
    iblk (F := Ideal) m c 3 t (ix2 (0 : Fin 1) cc) = Cert.Spec.sq (eArg m c) (colOf t cc) := by
  refine (blk3_read m c t cc).trans ?_
  refine (congrFun (V_v3 m c) _).trans ?_
  exact sumsq_row _ _ _ _ (colOf t cc)

theorem iblk4_apply (c : Dev nD) (t : Fin cfg0.N) (r cc : Fin 1024) :
    (((BitVec.toInt (iblk (F := Ideal) m c 4 t (ix2 r cc)) : ℤ) : ℝ) : EReal) = aArg m c (rowOf t r) (colOf t cc) := by
  have h : iblk (F := Ideal) m c 4 t (ix2 r cc) = m ((c.tc : Thread nD τ).loc main_arg1) (ix2 (rowOf t r) (colOf t cc)) :=
    (blk4_read m c t r cc).trans (congrFun (V_arg1 m c) _)
  rw [h]
  rfl

end Cert.KernelIdeal.Hand

end
-- ==== Proof.KI.OutValue.lean ====
/-
  The output array when the region is left: row `i` holds the kernel's value of that row, the row's sum of
  weighted distances over the row's degree.

  After the point at row block `I` and column block `J` the two accumulators hold, at row `r`, the sums over
  the global columns below `(J + 1) · 1024` of the weighted distances and of the adjacency entries of global
  row `I · 1024 + r` (induction on the column block: a reset at the first, an addition at each).  The point at the
  last column block stores their quotient, and that block is written back to rows `I · 1024 …` of the output;
  these eight blocks cover the array.
-/
import proofs.«101301_j75651553951784_2_alg».proof.Proof.KI.Payload
import proofs.«101301_j75651553951784_2_alg».proof.Proof.KI.Blocks

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable (m : (ℓ : Loc nD τ sig) → Buf (Elt Ideal) ℓ)

/-! ## Global rows and columns by block number -/

/-- Column `cc` of column block `J` (taken mod 8), as a global column. -/
private def colN (J : ℕ) (cc : Fin 1024) : Fin 8192 := ⟨(J % 8) * 1024 + cc.val, by have := cc.isLt; omega⟩
/-- Row `r` of row block `I` (taken mod 8), as a global row. -/
private def rowN (I : ℕ) (r : Fin 1024) : Fin 8192 := ⟨(I % 8) * 1024 + r.val, by have := r.isLt; omega⟩

private theorem colOf_eq (t : Fin cfg0.N) (cc : Fin 1024) : colOf t cc = colN t.val cc := rfl

private theorem rowOf_eq (t : Fin cfg0.N) (r : Fin 1024) : rowOf t r = rowN (t.val / 8) r := by
  have h := t.isLt; have hN : cfg0.N = 64 := N_0
  apply Fin.ext
  show (t.val / 8) * 1024 + r.val = (t.val / 8 % 8) * 1024 + r.val
  omega

private theorem colN_mod (J : ℕ) (cc : Fin 1024) : colN (J % 8) cc = colN J cc := by
  apply Fin.ext
  show (J % 8 % 8) * 1024 + cc.val = (J % 8) * 1024 + cc.val
  omega

/-- The eight column blocks make up a whole row. -/
private theorem sum_blocks (f : Fin 8192 → EReal) :
    ∑ J ∈ Finset.range 8, ∑ cc : Fin 1024, f (colN J cc) = ∑ j : Fin 8192, f j := by
  rw [Finset.sum_range]
  have e := Equiv.sum_comp (finProdFinEquiv (m := 8) (n := 1024)) f
  rw [Fintype.sum_prod_type] at e
  refine Eq.trans ?_ e
  refine Finset.sum_congr rfl fun J _ => Finset.sum_congr rfl fun cc _ => congrArg f (Fin.ext ?_)
  have := J.isLt
  show (J.val % 8) * 1024 + cc.val = cc.val + 1024 * J.val
  omega

/-! ## The partial sums along a row -/

/-- The sum of row `i`'s weighted distances over the first `k` column blocks. -/
private def numUpTo (e : Fin 8192 → Fin 512 → EReal) (a : Fin 8192 → Fin 8192 → EReal) (i : Fin 8192) (k : ℕ) : EReal :=
  ∑ J ∈ Finset.range k, ∑ cc : Fin 1024, Cert.Spec.x e a i (colN J cc)
/-- The sum of row `i`'s adjacency entries over the first `k` column blocks. -/
private def degUpTo (a : Fin 8192 → Fin 8192 → EReal) (i : Fin 8192) (k : ℕ) : EReal :=
  ∑ J ∈ Finset.range k, ∑ cc : Fin 1024, a i (colN J cc)

private theorem numUpTo_succ (e : Fin 8192 → Fin 512 → EReal) (a : Fin 8192 → Fin 8192 → EReal) (i : Fin 8192) (k : ℕ) :
    numUpTo e a i (k + 1) = numUpTo e a i k + ∑ cc : Fin 1024, Cert.Spec.x e a i (colN k cc) :=
  Finset.sum_range_succ _ _
private theorem degUpTo_succ (a : Fin 8192 → Fin 8192 → EReal) (i : Fin 8192) (k : ℕ) :
    degUpTo a i (k + 1) = degUpTo a i k + ∑ cc : Fin 1024, a i (colN k cc) :=
  Finset.sum_range_succ _ _
private theorem numUpTo_zero (e : Fin 8192 → Fin 512 → EReal) (a : Fin 8192 → Fin 8192 → EReal) (i : Fin 8192) :
    numUpTo e a i 0 = 0 := Finset.sum_range_zero _
private theorem degUpTo_zero (a : Fin 8192 → Fin 8192 → EReal) (i : Fin 8192) : degUpTo a i 0 = 0 := Finset.sum_range_zero _
private theorem numUpTo_eight (e : Fin 8192 → Fin 512 → EReal) (a : Fin 8192 → Fin 8192 → EReal) (i : Fin 8192) :
    numUpTo e a i 8 = ∑ j : Fin 8192, Cert.Spec.x e a i j := sum_blocks (fun j => Cert.Spec.x e a i j)
private theorem degUpTo_eight (a : Fin 8192 → Fin 8192 → EReal) (i : Fin 8192) :
    degUpTo a i 8 = Cert.Spec.deg a i := sum_blocks (fun j => a i j)

/-! ## One point's additions -/

/-- Point `t`'s row block and column block of the embeddings, as 1024 × 512 matrices. -/
private abbrev rblk (c : Dev nD) (t : Fin cfg0.N) : Vec Ideal S1024x512 .bf16 := iblk m c 0 t
private abbrev cblk (c : Dev nD) (t : Fin cfg0.N) : Vec Ideal S1024x512 .bf16 := iblk m c 1 t

private theorem rblk_apply (c : Dev nD) (t : Fin cfg0.N) (r : Fin 1024) (d : Fin 512) :
    rblk m c t (ix2 r d) = eArg m c (rowOf t r) d := iblk0_apply m c t r d
private theorem cblk_apply (c : Dev nD) (t : Fin cfg0.N) (cc : Fin 1024) (d : Fin 512) :
    cblk m c t (ix2 cc d) = eArg m c (colOf t cc) d := iblk1_apply m c t cc d

/-- The inner products of the two blocks' rows are entries of the Gram matrix. -/
private theorem gram_blk (c : Dev nD) (t : Fin cfg0.N) (r cc : Fin 1024) :
    (∑ d : Fin 512, rblk m c t (ix2 r d) * cblk m c t (ix2 cc d))
      = Cert.Spec.gram (eArg m c) (rowOf t r) (colOf t cc) :=
  Finset.sum_congr rfl fun d _ => by rw [rblk_apply m c t r d, cblk_apply m c t cc d]

/-- The numerator step at point `t`, row `r`: what was there plus the row's weighted distances over the point's
    column block. -/
private theorem num_step (c : Dev nD) (t : Fin cfg0.N) (r : Fin 1024) (prev : Vec Ideal S1024x1 .f32) :
    k0_pay6 (F := Ideal) (iblk m c 0 t) (iblk m c 1 t) (iblk m c 2 t) (iblk m c 3 t) (iblk m c 4 t) prev (ix2 r (0 : Fin 1))
      = prev (ix2 r (0 : Fin 1)) + ∑ cc : Fin 1024, Cert.Spec.x (eArg m c) (aArg m c) (rowOf t r) (colOf t cc) := by
  refine (pay6_apply (rblk m c t) (cblk m c t) (iblk m c 2 t) (iblk m c 3 t) (iblk m c 4 t) prev r).trans ?_
  refine congrArg (fun s => prev (ix2 r (0 : Fin 1)) + s) (Finset.sum_congr rfl fun cc _ => ?_)
  rw [iblk2_apply m c t r, iblk3_apply m c t cc, iblk4_apply m c t r cc, gram_blk m c t r cc]
  rfl

/-- The degree step at point `t`, row `r`: what was there plus the row's adjacency entries over the point's
    column block. -/
private theorem deg_step (c : Dev nD) (t : Fin cfg0.N) (r : Fin 1024) (prev : Vec Ideal S1024x1 .f32) :
    k0_pay1 (F := Ideal) (k0_pay5 (iblk m c 4 t)) prev (ix2 r (0 : Fin 1))
      = prev (ix2 r (0 : Fin 1)) + ∑ cc : Fin 1024, aArg m c (rowOf t r) (colOf t cc) := by
  refine (pay1_apply (iblk m c 4 t) prev r).trans ?_
  refine congrArg (fun s => prev (ix2 r (0 : Fin 1)) + s) (Finset.sum_congr rfl fun cc _ => ?_)
  exact iblk4_apply m c t r cc

/-! ## The accumulators after each point -/

private theorem numUpTo_one (e : Fin 8192 → Fin 512 → EReal) (a : Fin 8192 → Fin 8192 → EReal) (i : Fin 8192) :
    numUpTo e a i (0 + 1) = 0 + ∑ cc : Fin 1024, Cert.Spec.x e a i (colN 0 cc) := by
  rw [numUpTo_succ, numUpTo_zero]
private theorem degUpTo_one (a : Fin 8192 → Fin 8192 → EReal) (i : Fin 8192) :
    degUpTo a i (0 + 1) = 0 + ∑ cc : Fin 1024, a i (colN 0 cc) := by
  rw [degUpTo_succ, degUpTo_zero]

/-- At a point of the first column block the accumulators hold the first block's sums. -/
private theorem acc_first (c : Dev nD) (r : Fin 1024) (t : Fin cfg0.N) (h0 : t.val % 8 = 0) :
    (accAt m c t.val t.isLt).1 (ix2 r (0 : Fin 1)) = numUpTo (eArg m c) (aArg m c) (rowN (t.val / 8) r) (t.val % 8 + 1)
    ∧ (accAt m c t.val t.isLt).2 (ix2 r (0 : Fin 1)) = degUpTo (aArg m c) (rowN (t.val / 8) r) (t.val % 8 + 1) := by
  have hc : ∀ cc : Fin 1024, colOf t cc = colN 0 cc := fun cc => by rw [colOf_eq, ← colN_mod, h0]
  rw [accAt_reset m c t h0]
  dsimp only
  rw [num_step m c t r, deg_step m c t r, pay3_apply, pay4_apply, rowOf_eq, h0]
  simp only [hc]
  exact ⟨(numUpTo_one _ _ _).symm, (degUpTo_one _ _).symm⟩

/-- After the point at position `n` the accumulators hold, at row `r`, the partial sums of global row
    `(n / 8) · 1024 + r` over the column blocks up to `n % 8`. -/
private theorem acc_inv (c : Dev nD) (r : Fin 1024) : ∀ (n : ℕ) (hn : n < cfg0.N),
    (accAt m c n hn).1 (ix2 r (0 : Fin 1)) = numUpTo (eArg m c) (aArg m c) (rowN (n / 8) r) (n % 8 + 1)
    ∧ (accAt m c n hn).2 (ix2 r (0 : Fin 1)) = degUpTo (aArg m c) (rowN (n / 8) r) (n % 8 + 1) := by
  intro n
  induction n with
  | zero => exact fun hn => acc_first m c r ⟨0, hn⟩ rfl
  | succ n ih =>
    intro hn
    by_cases h0 : (n + 1) % 8 = 0
    · exact acc_first m c r ⟨n + 1, hn⟩ h0
    · have ihn := ih (Nat.lt_of_succ_lt hn)
      have hq : (n + 1) / 8 = n / 8 := by omega
      have hm : (n + 1) % 8 = n % 8 + 1 := by omega
      have hc : ∀ cc : Fin 1024, colOf ⟨n + 1, hn⟩ cc = colN (n % 8 + 1) cc := fun cc => by
        rw [colOf_eq, ← colN_mod]; show colN ((n + 1) % 8) cc = _; rw [hm]
      have hr : rowOf ⟨n + 1, hn⟩ r = rowN (n / 8) r := by rw [rowOf_eq]; show rowN ((n + 1) / 8) r = _; rw [hq]
      rw [accAt_step m c ⟨n + 1, hn⟩ h0]
      dsimp only
      rw [num_step m c ⟨n + 1, hn⟩ r, deg_step m c ⟨n + 1, hn⟩ r, hr]
      simp only [hc]
      show (accAt m c n _).1 (ix2 r (0 : Fin 1)) + _ = _ ∧ (accAt m c n _).2 (ix2 r (0 : Fin 1)) + _ = _
      rw [ihn.1, ihn.2, hq, hm]
      exact ⟨(numUpTo_succ _ _ _ _).symm, (degUpTo_succ _ _ _).symm⟩

/-- At a point of the last column block the quotient is the kernel's value of the row. -/
private theorem outAt_last (c : Dev nD) (t : Fin cfg0.N) (h7 : t.val % 8 = 7) (r : Fin 1024) :
    outAt m c t (ix2 r (0 : Fin 1)) = Cert.Spec.kernelRow (eArg m c) (aArg m c) (rowOf t r) := by
  unfold outAt
  rw [pay2_apply, (acc_inv m c r t.val t.isLt).1, (acc_inv m c r t.val t.isLt).2, h7, numUpTo_eight, degUpTo_eight,
    ← rowOf_eq]
  rfl

/-! ## From the blocks to the array -/

/-- Every entry of the last column block's quotient, by its row. -/
private theorem outAt_last_idx (c : Dev nD) (t : Fin cfg0.N) (h7 : t.val % 8 = 7) (j : S1024x1.Idx) :
    outAt m c t j = Cert.Spec.kernelRow (eArg m c) (aArg m c) (rowOf t (j 0)) := by
  obtain ⟨r, z, rfl⟩ : ∃ (r : Fin 1024) (z : Fin 1), j = ix2 r z := ⟨j 0, j 1, eq_ix2 j⟩
  obtain rfl : z = 0 := Subsingleton.elim _ _
  exact outAt_last m c t h7 r

/-- The output array's contents: row `i` at the kernel's value of row `i`. -/
private abbrev outArr (c : Dev nD) : Vec Ideal S8192x1 .f32 := fun i => Cert.Spec.kernelRow (eArg m c) (aArg m c) (i 0)

/-- The output's block index at point `t`: the row block, and 0 across. -/
private theorem out_index : ∀ t : Fin cfg0.N, win0_5.index t (0 : Fin 2) = t.val / 8 ∧ win0_5.index t (1 : Fin 2) = 0 :=
  (by decide +kernel : ∀ t : Fin grid0.N, win0_5.index t (0 : Fin 2) = t.val / 8 ∧ win0_5.index t (1 : Fin 2) = 0)

/-- What a point of the last column block writes back is its block of that array. -/
private theorem flushed_out (c : Dev nD) (t : Fin cfg0.N) (hf : (cfg0.win 5).flush t = true) :
    (dats (F := Ideal) m 0 c).flushed 5 t = ((cfg0.win 5).blk t).view.read (Elt Ideal) (outArr m c) := by
  have h7 : t.val % 8 = 7 := (flush0_5 t).mp hf
  obtain ⟨e0, e1⟩ := out_index t
  show (cfg0.win 5).cut (grid0.coords t) ((dats (F := Ideal) m 0 c).after 5 t) = _
  rw [after0_5]
  funext y
  show outAt m c t ((cfg0.win 5).xinj (grid0.coords t) y) = _
  rw [outAt_last_idx m c t h7, View.read_apply]
  refine Eq.trans ?_ (cast_eq _ _).symm
  refine congrArg (Cert.Spec.kernelRow (eArg m c) (aArg m c)) (Fin.ext ?_)
  show (t.val / 8) * 1024 + (y 0).val = win0_5.index t (0 : Fin 2) * 1024 + 1 * (y 0).val
  rw [e0]; omega

/-- Every row of the output is in the block some point of the last column block writes back. -/
private theorem cover_out (i : S8192x1.Idx) :
    ∃ t : Fin cfg0.N, (cfg0.win 5).flush t = true ∧ i ∈ ((cfg0.win 5).blk t).view.set := by
  have hN : cfg0.N = 64 := N_0
  have hi0 : (i 0).val < 8192 := (i 0).isLt
  have hi1 : (i 1).val < 1 := (i 1).isLt
  obtain ⟨t, ht⟩ : ∃ t : Fin cfg0.N, t.val = ((i 0).val / 1024) * 8 + 7 := ⟨⟨((i 0).val / 1024) * 8 + 7, by omega⟩, rfl⟩
  obtain ⟨e0, e1⟩ := out_index t
  refine ⟨t, (flush0_5 t).mpr (by omega), ?_⟩
  show i ∈ ((View.whole main_v5).slice (win0_5.rect t)).set
  rw [View.set_slice_whole, Rect.mem_set_unit]
  intro a
  match a with
  | ⟨0, _⟩ =>
    show win0_5.index t (0 : Fin 2) * 1024 ≤ (i 0).val ∧ (i 0).val < win0_5.index t (0 : Fin 2) * 1024 + 1024
    rw [e0]; omega
  | ⟨1, _⟩ =>
    show win0_5.index t (1 : Fin 2) * 1 ≤ (i 1).val ∧ (i 1).val < win0_5.index t (1 : Fin 2) * 1 + 1
    rw [e1]; omega

/-- Row `i` of the output array when the region is left is the kernel's value of row `i`. -/
theorem out_apply (c : Dev nD) (i : Fin 8192) :
    (dats (F := Ideal) m 0 c).arrAt 5 cfg0.N (ix2 i (0 : Fin 1)) = Cert.Spec.kernelRow (eArg m c) (aArg m c) i :=
  congrFun ((dats (F := Ideal) m 0 c).arrAt_eq_of_cover 5 (outArr m c) (flushed_out m c) cover_out) (ix2 i (0 : Fin 1))

end Cert.KernelIdeal.Hand

end
-- ==== Proof.KI.TailValue.lean ====
/-
  The host operations after the region, evaluated: the result is minus the sum of the output array's rows plus
  a hundredth of the compactness term of the embeddings argument.
-/
import proofs.«101301_j75651553951784_2_alg».proof.Proof.KI.Blocks
import Idealize.ShloMosaic.Lib.ValueIdxRank1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open ValueIdx

variable (m : (ℓ : Loc nD τ sig) → Buf (Elt Ideal) ℓ)

/-- Each entry of the embeddings less the mean row's entry of its column, as the operations compute it. -/
private def cen (x : FVec Ideal S8192x512 .f32) : FVec Ideal S8192x512 .f32 :=
  subf x (broadcastInDim S8192x512 ![0, 1] bcast_S1x512_S8192x512_0_1
    (broadcastInDim S1x512 ![1] bcast_S512_S1x512_1
      (Host.divf (Host.reduceAdd x (constant S_ .f32 0x00000000#32) reducesTo_S8192x512_S512_d0 h_S_)
        (broadcastInDim S512 ![] bcast_S_S512 (constant S_ .f32 0x46000000#32)))))

/-- The operations after the region, as a function of the output array and the embeddings. -/
private def tailFn (o : FVec Ideal S8192x1 .f32) (x : FVec Ideal S8192x512 .f32) : FVec Ideal S_ .f32 :=
  addf (Host.negf (Host.reduceAdd (shapeCast S8192 o shapeCasts_S8192x1_S8192) (constant S_ .f32 0x00000000#32) reducesTo_S8192_S_d0 h_S_))
    (mulf (constant S_ .f32 0x3C23D70A#32)
      (Host.reduceAdd (Host.sqrt (Host.reduceAdd (mulf (cen x) (cen x)) (constant S_ .f32 0x00000000#32) reducesTo_S8192x512_S8192_d1 h_S_))
        (constant S_ .f32 0x00000000#32) reducesTo_S8192_S_d0 h_S_))

/-- The sum of a vector's entries, from zero, is the sum over its coordinate range. -/
private theorem sum_vec (y : FVec Ideal S8192 .f32) (j : S_.Idx) :
    Host.reduceAdd (F := Ideal) y (constant S_ .f32 0x00000000#32) reducesTo_S8192_S_d0 h_S_ j = ∑ i : Fin 8192, y (ix1 i) := by
  simp only [Host.reduceAdd, Ideal.hostReduceAdd_def]
  rw [Ideal.hostReduceAdd_total reducesTo_S8192_S_d0 (fun b => b.elim0), constant_apply, Ideal.ofBits_zero_f32, zero_add,
    ← Equiv.sum_comp (idxEquiv1 (n := 8192)).symm]
  rfl

/-- The one-column array read as a vector has the column's entries. -/
private theorem col_apply (o : FVec Ideal S8192x1 .f32) (i : Fin 8192) :
    shapeCast S8192 o shapeCasts_S8192x1_S8192 (ix1 i) = o (ix2 i (0 : Fin 1)) :=
  shapeCast_apply o shapeCasts_S8192x1_S8192 (ix1 i) (ix2 i (0 : Fin 1)) (by
    rw [Shape.rowMajor_val_two, Shape.rowMajor_val_one]; show i.val * 1 + 0 = i.val; omega)

/-- The mean row's entry of column `d`. -/
private theorem center_apply (x : FVec Ideal S8192x512 .f32) (d : Fin 512) :
    Host.divf (Host.reduceAdd (F := Ideal) x (constant S_ .f32 0x00000000#32) reducesTo_S8192x512_S512_d0 h_S_)
        (broadcastInDim S512 ![] bcast_S_S512 (constant S_ .f32 0x46000000#32)) (ix1 d)
      = Cert.Spec.center (Cert.Spec.eOf x) d := by
  show FloatOps.hostDivf (Host.reduceAdd (F := Ideal) x (constant S_ .f32 0x00000000#32) reducesTo_S8192x512_S512_d0 h_S_ (ix1 d))
      (broadcastInDim S512 ![] bcast_S_S512 (constant (F := Ideal) S_ .f32 0x46000000#32) (ix1 d)) = _
  rw [Ideal.hostDivf_def, broadcastInDim_apply _ bcast_S_S512 _ (ix1 d) ix0 (fun a => a.elim0), constant_apply]
  unfold Cert.Spec.center
  refine congrArg (fun s => Ideal.div s Cert.Spec.nRows) ?_
  simp only [Host.reduceAdd, Ideal.hostReduceAdd_def]
  rw [Ideal.hostReduceAdd_single reducesTo_S8192x512_S512_d0 (by decide), constant_apply, Ideal.ofBits_zero_f32, zero_add]
  refine Finset.sum_congr rfl fun k _ => ?_
  exact congrArg x (funext fun a => Fin.ext (by match a with | ⟨0, _⟩ => rfl | ⟨1, _⟩ => rfl))

/-- An entry less the mean row's. -/
private theorem cen_apply (x : FVec Ideal S8192x512 .f32) (i : Fin 8192) (d : Fin 512) :
    cen x (ix2 i d) = x (ix2 i d) - Cert.Spec.center (Cert.Spec.eOf x) d := by
  unfold cen
  show FloatOps.subf (x (ix2 i d)) _ = _
  rw [Ideal.subf_def]
  refine congrArg (x (ix2 i d) - ·) ?_
  rw [broadcastInDim_apply _ bcast_S1x512_S8192x512_0_1 _ (ix2 i d) (ix2 (0 : Fin 1) d) (fun a => match a with
      | ⟨0, _⟩ => by show 0 = if (1 : Nat) = 1 then 0 else _; rw [if_pos rfl]
      | ⟨1, _⟩ => by show d.val = if (512 : Nat) = 1 then 0 else d.val; rw [if_neg (by decide)]),
    broadcastInDim_apply _ bcast_S512_S1x512_1 _ (ix2 (0 : Fin 1) d) (ix1 d) (fun a => match a with
      | ⟨0, _⟩ => by show d.val = if (512 : Nat) = 1 then 0 else d.val; rw [if_neg (by decide)])]
  exact center_apply x d

/-- A row's distance to the mean row. -/
private theorem nrm_apply (x : FVec Ideal S8192x512 .f32) (i : Fin 8192) :
    Host.sqrt (Host.reduceAdd (F := Ideal) (mulf (cen x) (cen x)) (constant S_ .f32 0x00000000#32) reducesTo_S8192x512_S8192_d1 h_S_) (ix1 i)
      = Cert.Spec.nrm (Cert.Spec.eOf x) i := by
  show FloatOps.hostUnary .sqrt (Host.reduceAdd (F := Ideal) (mulf (cen x) (cen x)) (constant S_ .f32 0x00000000#32) reducesTo_S8192x512_S8192_d1 h_S_ (ix1 i)) = _
  rw [Ideal.hostUnary_sqrt_def]
  unfold Cert.Spec.nrm
  refine congrArg Ideal.sqrt ?_
  simp only [Host.reduceAdd, Ideal.hostReduceAdd_def]
  rw [Ideal.hostReduceAdd_single reducesTo_S8192x512_S8192_d1 (by decide), constant_apply, Ideal.ofBits_zero_f32, zero_add]
  refine Finset.sum_congr rfl fun (k : Fin 512) _ => ?_
  have hk : (Shape.Reduces.lift (by decide : S8192x512.Reduces [1] S8192) (ix1 i) k) = ix2 i k :=
    funext fun a => Fin.ext (by match a with | ⟨0, _⟩ => rfl | ⟨1, _⟩ => rfl)
  rw [hk]
  show FloatOps.mulf (cen x (ix2 i k)) (cen x (ix2 i k)) = _
  rw [Ideal.mulf_def, cen_apply x i k]
  rfl

/-- The operations after the region give minus the sum of the output's rows plus a hundredth of the compactness term. -/
private theorem tailFn_eq (o : FVec Ideal S8192x1 .f32) (x : FVec Ideal S8192x512 .f32) :
    tailFn o x = fun _ => -(∑ i : Fin 8192, o (ix2 i (0 : Fin 1))) + Cert.Spec.hundredth * Cert.Spec.comp (Cert.Spec.eOf x) := by
  funext j
  unfold tailFn
  show FloatOps.addf (FloatOps.hostNegf (Host.reduceAdd (F := Ideal) (shapeCast S8192 o shapeCasts_S8192x1_S8192) (constant S_ .f32 0x00000000#32) reducesTo_S8192_S_d0 h_S_ j))
      (FloatOps.mulf (constant (F := Ideal) S_ .f32 0x3C23D70A#32 j)
        (Host.reduceAdd (F := Ideal) (Host.sqrt (Host.reduceAdd (mulf (cen x) (cen x)) (constant S_ .f32 0x00000000#32) reducesTo_S8192x512_S8192_d1 h_S_))
          (constant S_ .f32 0x00000000#32) reducesTo_S8192_S_d0 h_S_ j)) = _
  rw [sum_vec, sum_vec, Ideal.addf_def, Ideal.mulf_def, constant_apply]
  unfold Cert.Spec.comp
  rw [Finset.sum_congr rfl fun i _ => col_apply o i, Finset.sum_congr rfl fun i _ => nrm_apply x i]
  rfl

/-- So, where the output's rows are the kernel's rows' values and the embeddings are the argument, they give the kernel's loss. -/
private theorem tailFn_loss (o : FVec Ideal S8192x1 .f32) (x : FVec Ideal S8192x512 .f32)
    (e : Fin 8192 → Fin 512 → EReal) (a : Fin 8192 → Fin 8192 → EReal)
    (ho : ∀ i : Fin 8192, o (ix2 i (0 : Fin 1)) = Cert.Spec.kernelRow e a i) (hx : Cert.Spec.eOf x = e) :
    tailFn o x = fun _ => Cert.Spec.kernelLoss e a := by
  rw [tailFn_eq, hx, Finset.sum_congr rfl fun i _ => ho i]
  rfl

/-- When the region is left the output array holds what the points wrote back. -/
private theorem exit_out (c : Dev nD) :
    (exitVal m c (Proc.devRef .tc main_v5) : FVec Ideal S8192x1 .f32) = (dats (F := Ideal) m 0 c).arrAt 5 cfg0.N := by
  unfold exitVal
  rw [dif_pos rfl]
  rfl

/-- The embeddings argument is only read: when the region is left it is the argument. -/
private theorem exit_emb (c : Dev nD) :
    (exitVal m c (Proc.devRef .tc main_arg0) : FVec Ideal S8192x512 .f32) = m ((c.tc : Thread nD τ).loc main_arg0) := by
  unfold exitVal
  rw [dif_neg (StableHlo.devRef_ne_of_ne (by decide))]
  show StableHlo.after (List.flatten [hostOps0]) (fun b => m (c, b)) (Proc.devRef .tc main_arg0) = _
  simp only [hostOps0, List.flatten_cons, List.flatten_nil, List.append_nil]
  after_results

/-- The result buffer after the last operation is the operations' function of the output array and the embeddings. -/
private theorem tail_fold (c : Dev nD) :
    StableHlo.after (tailOps (F := Ideal)) (exitVal m c) (Proc.devRef .tc main_v18)
      = tailFn (exitVal m c (Proc.devRef .tc main_v5)) (exitVal m c (Proc.devRef .tc main_arg0)) := by
  simp only [tailOps, hostOps1, hostOps1_1, hostOps1_2, List.flatten_cons, List.flatten_nil, List.append_nil, List.cons_append, List.nil_append]
  after_results
  simp only [StableHlo.TRef.ofBuf, StableHlo.TRef.toBuf, cast_eq]
  rfl

/-- If every row of the output array holds the kernel's value of that row, the result buffer ends at the
    kernel's loss. -/
theorem tail_eq (c : Dev nD)
    (hout : ∀ i : Fin 8192, (dats (F := Ideal) m 0 c).arrAt 5 cfg0.N (ix2 i (0 : Fin 1)) = Cert.Spec.kernelRow (eArg m c) (aArg m c) i) :
    StableHlo.after (tailOps (F := Ideal)) (exitVal m c) (Proc.devRef .tc main_v18)
      = (fun _ => Cert.Spec.kernelLoss (eArg m c) (aArg m c)) := by
  rw [tail_fold m c]
  exact tailFn_loss _ _ _ _ (fun i => (congrFun (exit_out m c) (ix2 i (0 : Fin 1))).trans (hout i))
    (congrArg Cert.Spec.eOf (exit_emb m c))

end Cert.KernelIdeal.Hand

end
-- ==== Proof.RefValue.lean ====
/-
  The reference's result, read index by index: minus the sum over all entries of the weighted distance over
  its row's degree, plus a hundredth of the compactness term.
-/
import proofs.«101301_j75651553951784_2_alg».proof.Proof.Gen.ReferenceIdeal.Run
import proofs.«101301_j75651553951784_2_alg».proof.Proof.Gen.ReferenceIdeal.Read
import proofs.«101301_j75651553951784_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem
open Cert.ReferenceIdeal.Read Idealize.ShloMosaic.ValueIdx
open scoped BigOperators

/-! ## Every intermediate array of the reference, one entry at a time

`v` is the embeddings array (8192 rows of 512 numbers) and `adj` the adjacency array (8192 × 8192 integers). Each lemma
reads one intermediate array at one entry and names it by the specification's word for it. -/

section Stages

variable (v : FVec Ideal S8192x512 .f32) (adj : IVec S8192x8192 32)

/-- A sum over a one-axis index set is the sum over the axis's coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, ix1, fun i => (eq_ix1 i).symm, fun _ => rfl⟩ _ _ fun i => congrArg f (eq_ix1 i)

/-- The row sums of the squares: entry `i` is the squared norm of row `i`. -/
private theorem sq_at (i : Fin 8192) : val_main_v1 (F := Ideal) v (ix1 i) = Spec.sq (Spec.eOf v) i := by
  rw [val_main_v1_apply, val_main_cst_apply, Ideal.ofBits_def, Ideal.ofBits_zero_f32, zero_add]
  refine Finset.sum_congr rfl fun k _ => ?_
  have e : idx_main_v1 (ix1 i) k = ix2 i k := funext fun a => Fin.ext (by match a with | ⟨0, _⟩ => rfl | ⟨1, _⟩ => rfl)
  rw [val_main_v0_apply, Ideal.mulf_def, e]
  rfl

/-- The product of the array with its transpose: entry `(i, j)` is the inner product of rows `i` and `j`. -/
private theorem gram_at (i j : Fin 8192) : val_main_v3 (F := Ideal) v (ix2 i j) = Spec.gram (Spec.eOf v) i j := by
  rw [val_main_v3_apply]
  refine Finset.sum_congr rfl fun k _ => ?_
  have el : lidx_main_v3 (ix2 i j) k = ix2 i k := funext fun a => Fin.ext (by match a with | ⟨0, _⟩ => rfl | ⟨1, _⟩ => rfl)
  have er : idx_main_v2 (ridx_main_v3 (ix2 i j) k) = ix2 j k := funext fun a => Fin.ext (by match a with | ⟨0, _⟩ => rfl | ⟨1, _⟩ => rfl)
  rw [val_main_v2_apply, el, er]
  rfl

/-- The clipped and floored squared distance at `(i, j)`: the two squared norms minus twice the inner product, not
    below zero and not below the floor. -/
private theorem clipped_at (i j : Fin 8192) :
    val_main_v14 (F := Ideal) v (ix2 i j)
      = max (max 0 (Spec.sq (Spec.eOf v) i + Spec.sq (Spec.eOf v) j - Spec.two * Spec.gram (Spec.eOf v) i j)) Spec.eps := by
  have e4 : idx_main_v4 (idx_main_v6 (ix2 i j)) = ix1 i := funext fun a => Fin.ext (by match a with | ⟨0, _⟩ => rfl)
  have e5 : idx_main_v5 (idx_main_v7 (ix2 i j)) = ix1 j := funext fun a => Fin.ext (by match a with | ⟨0, _⟩ => rfl)
  rw [val_main_v14_apply, val_main_v12_apply, val_main_call0_v1_apply, val_main_call0_v0_apply, val_main_cst_1_apply,
    val_main_v11_apply, val_main_v8_apply, val_main_v6_apply, val_main_v4_apply, e4, val_main_v7_apply, val_main_v5_apply, e5,
    val_main_v10_apply, val_main_v9_apply, val_main_cst_0_apply, val_main_v13_apply, val_main_cst_2_apply,
    sq_at, sq_at, gram_at]
  simp only [Ideal.maximumf_def, Ideal.subf_def, Ideal.addf_def, Ideal.mulf_def, Ideal.ofBits_def, Ideal.ofBits_zero_f32]

/-- Its square root: the pairwise distance. -/
private theorem dist_at (i j : Fin 8192) : val_main_v15 (F := Ideal) v (ix2 i j) = Spec.dist (Spec.eOf v) i j := by
  rw [val_main_v15_apply, clipped_at, Ideal.hostUnary_sqrt_def]
  rfl

/-- The adjacency integers as numbers. -/
private theorem weight_at (i j : Fin 8192) : val_main_v16 (F := Ideal) adj (ix2 i j) = Spec.aOf adj i j := rfl

/-- The row sums of the adjacency numbers: entry `i` is the degree of row `i`. -/
private theorem deg_at (i : Fin 8192) : val_main_v17 (F := Ideal) adj (ix1 i) = Spec.deg (Spec.aOf adj) i := by
  rw [val_main_v17_apply, val_main_cst_3_apply, Ideal.ofBits_def, Ideal.ofBits_zero_f32, zero_add]
  refine Finset.sum_congr rfl fun k _ => ?_
  have e : idx_main_v17 (ix1 i) k = ix2 i k := funext fun a => Fin.ext (by match a with | ⟨0, _⟩ => rfl | ⟨1, _⟩ => rfl)
  rw [e]
  rfl

/-- The weighted distance over the degree of its row, entry by entry. -/
private theorem quot_at (i j : Fin 8192) :
    val_main_v21 (F := Ideal) v adj (ix2 i j)
      = Ideal.div (Spec.x (Spec.eOf v) (Spec.aOf adj) i j) (Spec.deg (Spec.aOf adj) i) := by
  have e : idx_main_v18 (idx_main_v20 (ix2 i j)) = ix1 i := funext fun a => Fin.ext (by match a with | ⟨0, _⟩ => rfl)
  rw [val_main_v21_apply, val_main_v19_apply, val_main_v20_apply, val_main_v18_apply, e, dist_at, weight_at, deg_at,
    Ideal.hostDivf_def, Ideal.mulf_def]
  rfl

/-- Minus the sum of all those quotients: the neighbourhood term. The sum over the pair index set is the double sum
    over the two coordinates. -/
private theorem nb_at (z : S_.Idx) : val_main_v23 (F := Ideal) v adj z = Spec.refNb (Spec.eOf v) (Spec.aOf adj) := by
  rw [val_main_v23_apply, val_main_v22_apply, val_main_cst_4_apply, Ideal.ofBits_def, Ideal.ofBits_zero_f32, zero_add,
    Ideal.hostNegf_def, Ideal.negf_def, sum_idx2]
  exact congrArg Neg.neg (Finset.sum_congr rfl fun i _ => Finset.sum_congr rfl fun j _ => quot_at v adj i j)

/-- The column sums over the number of rows: entry `d` is coordinate `d` of the mean row. -/
private theorem center_at (d : Fin 512) : val_main_v26 (F := Ideal) v (ix1 d) = Spec.center (Spec.eOf v) d := by
  rw [val_main_v26_apply, val_main_v24_apply, val_main_cst_5_apply, Ideal.ofBits_def, Ideal.ofBits_zero_f32, zero_add,
    val_main_v25_apply, val_main_cst_6_apply, Ideal.ofBits_def, Ideal.hostDivf_def]
  refine congrArg (Ideal.div · Spec.nRows) (Finset.sum_congr rfl fun k _ => ?_)
  have e : idx_main_v24 (ix1 d) k = ix2 k d := funext fun a => Fin.ext (by match a with | ⟨0, _⟩ => rfl | ⟨1, _⟩ => rfl)
  rw [e]
  rfl

/-- The array with the mean row taken off every row. -/
private theorem centered_at (i : Fin 8192) (d : Fin 512) :
    val_main_v29 (F := Ideal) v (ix2 i d) = v (ix2 i d) - Spec.center (Spec.eOf v) d := by
  have e : idx_main_v27 (idx_main_v28 (ix2 i d)) = ix1 d := funext fun a => Fin.ext (by match a with | ⟨0, _⟩ => rfl)
  rw [val_main_v29_apply, val_main_v28_apply, val_main_v27_apply, e, center_at, Ideal.subf_def]

/-- The root of the sum of squares of each centred row: entry `i` is the distance of row `i` to the mean row. -/
private theorem nrm_at (i : Fin 8192) : val_main_v30 (F := Ideal) v (ix1 i) = Spec.nrm (Spec.eOf v) i := by
  rw [val_main_v30_apply, val_main_call1_v1_apply, val_main_call1_cst_apply, Ideal.ofBits_def, Ideal.ofBits_zero_f32, zero_add,
    Ideal.hostUnary_sqrt_def]
  refine congrArg Ideal.sqrt (Finset.sum_congr rfl fun k _ => ?_)
  have e : idx_main_call1_v1 (ix1 i) k = ix2 i k := funext fun a => Fin.ext (by match a with | ⟨0, _⟩ => rfl | ⟨1, _⟩ => rfl)
  rw [val_main_call1_v0_apply, e, centered_at, Ideal.mulf_def]
  rfl

/-- The sum of those distances: the compactness term. -/
private theorem comp_at (z : S_.Idx) : val_main_v31 (F := Ideal) v z = Spec.comp (Spec.eOf v) := by
  rw [val_main_v31_apply, val_main_cst_7_apply, Ideal.ofBits_def, Ideal.ofBits_zero_f32, zero_add, sum_idx1]
  exact Finset.sum_congr rfl fun i _ => nrm_at v i

/-- The result: the neighbourhood term plus a hundredth of the compactness term. -/
private theorem loss_at (z : S_.Idx) :
    val_main_v33 (F := Ideal) v adj z = Spec.refLoss (Spec.eOf v) (Spec.aOf adj) := by
  rw [val_main_v33_apply, nb_at, val_main_v32_apply, val_main_cst_8_apply, comp_at, Ideal.addf_def, Ideal.mulf_def,
    Ideal.ofBits_def]
  rfl

end Stages

/-- Every weakly fair execution of the reference ends with its result at `Spec.refLoss` of the two argument
    arrays, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33)
          = (fun _ => Cert.Spec.refLoss (Cert.Spec.eOf (m ((c.tc : Thread nD τ).loc main_arg0))) (Cert.Spec.aOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run (defs (F := Ideal)) _ _).mono
    (fun _ h c => ⟨(h c).1.trans ((val_main_v33_eq (F := Ideal) (m ((c.tc : Thread nD τ).loc main_arg0))
        (m ((c.tc : Thread nD τ).loc main_arg1))).trans
        (funext fun z => loss_at (m ((c.tc : Thread nD τ).loc main_arg0)) (m ((c.tc : Thread nD τ).loc main_arg1)) z)), (h c).2⟩)
    (Cert.ReferenceIdeal.Value.run (F := Ideal) m ρ)

end Cert.ReferenceIdeal.RefValue

end
-- ==== Proof.PreDecode.lean ====
/-
  What the precondition says at the extended reals: every embedding entry is a real number, and no row of the
  adjacency matrix sums to zero.
-/
import proofs.«101301_j75651553951784_2_alg».proof.Pre_finite_inputs
import proofs.«101301_j75651553951784_2_alg».proof.Proof.Gen.Pre_finite_inputs
import proofs.«101301_j75651553951784_2_alg».proof.Proof.Spec
import Idealize.ShloMosaic.Lib.ReduceAll
import Idealize.ShloMosaic.Lib.StableHlo.Predicate
import Idealize.ShloMosaic.PureOps.Ideal.Laws

noncomputable section

namespace Cert.PreRead

open Idealize.ShloMosaic

variable [Cert.Pre_finite_inputs.Facts]

/-- The scalar shape has one index. -/
private instance : Subsingleton Cert.Pre_finite_inputs.S_.Idx := ⟨fun _ _ => funext fun d => d.elim0⟩

/-- The word of the positive infinity is the top element. -/
private theorem ofBits_inf : Ideal.ofBits .f32 0x7F800000#32 = (⊤ : EReal) := by simp [Ideal.ofBits, Ideal.ieee]

/-- An extended real whose absolute value is strictly below the top element is a real number: the absolute value of
    either infinity is the top element, which is not below itself. -/
private theorem real_of_abs_lt_top (x : EReal)
    (hx : Ideal.cmp .olt (max x (-x)) (Ideal.ofBits .f32 0x7F800000#32) = 1#1) : ∃ r : ℝ, x = (r : EReal) := by
  rw [ofBits_inf] at hx
  induction x using EReal.rec with
  | bot => simp [Ideal.cmp] at hx
  | coe r => exact ⟨r, rfl⟩
  | top => simp [Ideal.cmp] at hx

/-- A "not equal" comparison that answers 1 says its operands differ. -/
private theorem ne_of_cmp_une (x y : EReal) (hxy : Ideal.cmp .une x y = 1#1) : x ≠ y := by
  intro hc
  rw [hc] at hxy
  simp [Ideal.cmp] at hxy

/-- The two conjuncts of the precondition, each read at every index of the array it quantifies over. -/
private theorem conjuncts (arr : FVec Ideal Cert.Pre_finite_inputs.S8192x512 .f32) (adj : IVec Cert.Pre_finite_inputs.S8192x8192 32)
    (h : Cert.Pre_finite_inputs.fn (F := Ideal) arr adj = fun _ => 1#1) :
    (∀ j : Cert.Pre_finite_inputs.S8192x512.Idx,
        Ideal.cmp .olt (max (arr j) (-(arr j))) (Ideal.ofBits .f32 0x7F800000#32) = 1#1) ∧
    (∀ j : Cert.Pre_finite_inputs.S8192.Idx,
        Ideal.cmp .une
          (Ideal.hostReduceAdd Cert.Pre_finite_inputs.Facts.reducesTo_S8192x8192_S8192_d1 (sitofp (F := Ideal) .f32 adj)
            (Ideal.ofBits .f32 0x00000000#32) j)
          (Ideal.ofBits .f32 0x00000000#32) = 1#1) := by
  have h0 := congrFun h ValueIdx.ix0
  dsimp only [Cert.Pre_finite_inputs.fn] at h0
  obtain ⟨h1, h2⟩ := IntOp.andi_eq_one.1 h0
  exact ⟨fun j => Host.reduce_andi_all _ _ _ _ _ h1 j, fun j => Host.reduce_andi_all _ _ _ _ _ h2 j⟩

/-- A row's sum of the converted adjacency entries, from the zero word, is the row's degree. -/
private theorem rowSum_eq_deg (adj : IVec Cert.Pre_finite_inputs.S8192x8192 32) (i : Fin 8192) :
    Ideal.hostReduceAdd Cert.Pre_finite_inputs.Facts.reducesTo_S8192x8192_S8192_d1 (sitofp (F := Ideal) .f32 adj)
        (Ideal.ofBits .f32 0x00000000#32) (ValueIdx.ix1 i)
      = Cert.Spec.deg (Cert.Spec.aOf adj) i := by
  rw [Ideal.hostReduceAdd_single _ (by decide), Ideal.ofBits_zero_f32, zero_add]
  unfold Cert.Spec.deg Cert.Spec.aOf
  refine Finset.sum_congr rfl fun k _ => ?_
  show (((adj _).toInt : ℝ) : EReal) = _
  have hidx : (Shape.Reduces.lift (by decide : Cert.Pre_finite_inputs.S8192x8192.Reduces [1] Cert.Pre_finite_inputs.S8192) (ValueIdx.ix1 i) k)
      = ValueIdx.ix2 i k := funext fun a => Fin.ext (by match a with | ⟨0, _⟩ => rfl | ⟨1, _⟩ => rfl)
  rw [hidx]
  rfl

/-- Under the precondition every embedding entry is a real number. -/
theorem finite_of_pre (arr : FVec Ideal Cert.Pre_finite_inputs.S8192x512 .f32) (adj : IVec Cert.Pre_finite_inputs.S8192x8192 32)
    (h : Cert.Pre_finite_inputs.fn (F := Ideal) arr adj = fun _ => 1#1) :
    ∀ i d, ∃ r : ℝ, Cert.Spec.eOf arr i d = (r : EReal) :=
  fun i d => real_of_abs_lt_top _ ((conjuncts arr adj h).1 (ValueIdx.ix2 i d))

/-- Under the precondition no row's degree is zero. -/
theorem deg_ne_zero_of_pre (arr : FVec Ideal Cert.Pre_finite_inputs.S8192x512 .f32) (adj : IVec Cert.Pre_finite_inputs.S8192x8192 32)
    (h : Cert.Pre_finite_inputs.fn (F := Ideal) arr adj = fun _ => 1#1) :
    ∀ i, Cert.Spec.deg (Cert.Spec.aOf adj) i ≠ 0 := by
  intro i
  have hne := ne_of_cmp_une _ _ ((conjuncts arr adj h).2 (ValueIdx.ix1 i))
  rwa [rowSum_eq_deg, Ideal.ofBits_zero_f32] at hne

end Cert.PreRead

end
-- ==== Proof.Algebra.lean ====
/-
  The law that joins the two programs: under finiteness and nonzero degrees, dividing a row's sum by the
  row's degree is dividing every entry by it.
-/
import proofs.«101301_j75651553951784_2_alg».proof.Proof.Spec

noncomputable section

namespace Cert.Spec

open Idealize.ShloMosaic

/-- A finite sum of real numbers, read in the extended reals, is the real sum. -/
private theorem coe_sum {ι : Type} (s : Finset ι) (f : ι → ℝ) :
    (∑ i ∈ s, (f i : EReal)) = ((∑ i ∈ s, f i : ℝ) : EReal) := by
  classical
  induction s using Finset.induction_on with
  | empty => simp
  | insert _ _ h ih => rw [Finset.sum_insert h, Finset.sum_insert h, ih, EReal.coe_add]

/-- The larger of two real numbers, read in the extended reals, is the larger of the two readings. -/
private theorem coe_max (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The constant two is a real number. -/
private theorem two_real : ∃ r : ℝ, two = (r : EReal) := by
  unfold two
  simp [Ideal.ofBits, Ideal.ieee, -EReal.coe_mul]

/-- The floor under the squared distance is a real number. -/
private theorem eps_real : ∃ r : ℝ, eps = (r : EReal) := by
  unfold eps
  simp [Ideal.ofBits, Ideal.ieee, -EReal.coe_mul]

/-- Over real entries every weighted distance is a real number: the squared norms and the Gram entries are
    finite sums of products of reals, the square root's argument is a real number that is at least zero,
    and the product of two reals is real. -/
private theorem x_real (E : Fin 8192 → Fin 512 → ℝ) (A : Fin 8192 → Fin 8192 → ℝ) (i j : Fin 8192) :
    ∃ r : ℝ, x (fun i d => (E i d : EReal)) (fun i j => (A i j : EReal)) i j = (r : EReal) := by
  obtain ⟨t, ht⟩ := two_real
  obtain ⟨p, hp⟩ := eps_real
  have hsq : ∀ k : Fin 8192, sq (fun i d => (E i d : EReal)) k = ((∑ d : Fin 512, E k d * E k d : ℝ) : EReal) := by
    intro k
    unfold sq
    simp only [← EReal.coe_mul]
    exact coe_sum _ _
  have hgram : gram (fun i d => (E i d : EReal)) i j = ((∑ d : Fin 512, E i d * E j d : ℝ) : EReal) := by
    unfold gram
    simp only [← EReal.coe_mul]
    exact coe_sum _ _
  refine ⟨Real.sqrt (max (max 0 ((∑ d : Fin 512, E i d * E i d) + (∑ d : Fin 512, E j d * E j d)
      - t * (∑ d : Fin 512, E i d * E j d))) p) * A i j, ?_⟩
  unfold x dist
  rw [hsq i, hsq j, hgram, ht, hp, ← EReal.coe_mul, ← EReal.coe_add, ← EReal.coe_sub, ← EReal.coe_zero, coe_max,
    coe_max, Ideal.sqrt_coe, if_neg (not_lt.2 (le_trans (le_max_left _ _) (le_max_left _ _))), ← EReal.coe_mul]

/-- Dividing a finite sum of reals by a nonzero real is dividing every summand by it. -/
private theorem div_sum (X : Fin 8192 → ℝ) (D : ℝ) (hD : D ≠ 0) :
    Ideal.div (∑ j : Fin 8192, (X j : EReal)) (D : EReal) = ∑ j : Fin 8192, Ideal.div (X j : EReal) (D : EReal) := by
  simp only [Ideal.div_coe hD, ← EReal.coe_mul]
  rw [coe_sum, coe_sum, ← EReal.coe_mul, Finset.sum_mul]

/-- If every embedding entry and every adjacency entry is a real number and no row's degree is zero, the kernel's
    result is the reference's. -/
theorem kernelLoss_eq_refLoss (e : Fin 8192 → Fin 512 → EReal) (a : Fin 8192 → Fin 8192 → EReal)
    (he : ∀ i d, ∃ r : ℝ, e i d = (r : EReal)) (ha : ∀ i j, ∃ r : ℝ, a i j = (r : EReal))
    (hdeg : ∀ i, deg a i ≠ 0) : kernelLoss e a = refLoss e a := by
  choose E hE using he
  choose A hA using ha
  obtain rfl : e = fun i d => (E i d : EReal) := funext fun i => funext fun d => hE i d
  obtain rfl : a = fun i j => (A i j : EReal) := funext fun i => funext fun j => hA i j
  choose X hX using x_real E A
  have hdegR : ∀ i, deg (fun i j => (A i j : EReal)) i = ((∑ j : Fin 8192, A i j : ℝ) : EReal) := by
    intro i
    unfold deg
    exact coe_sum _ _
  have hrow : ∀ i : Fin 8192, kernelRow (fun i d => (E i d : EReal)) (fun i j => (A i j : EReal)) i
      = ∑ j : Fin 8192, Ideal.div (x (fun i d => (E i d : EReal)) (fun i j => (A i j : EReal)) i j)
          (deg (fun i j => (A i j : EReal)) i) := by
    intro i
    have hD : (∑ j : Fin 8192, A i j) ≠ 0 := by
      have h := hdeg i
      rw [hdegR i] at h
      exact EReal.coe_ne_zero.1 h
    unfold kernelRow
    simp only [hX i, hdegR i]
    exact div_sum (X i) _ hD
  unfold kernelLoss refLoss kernelNb refNb
  simp only [hrow]

end Cert.Spec

end
-- ==== Proof.lean ====
/-
  The kernel computes, for an embedding matrix `e` (8192 × 512) and an integer adjacency matrix `a` (8192 × 8192),
      − Σ_i ( (Σ_j dist(i,j) · a(i,j)) / deg(i) )  +  0.01 · comp(e),
  where dist(i,j) = √(max(max(0, |e_i|² + |e_j|² − 2 e_i·e_j), ε)), deg(i) = Σ_j a(i,j) and comp(e) is the sum
  over rows of the row's distance to the mean row: a grid of 8 × 8 blocks, the row sums of each row block
  accumulated over the eight column blocks in two scratch vectors, their quotient stored at the last one.  The
  reference computes
      − Σ_{i,j} ( dist(i,j) · a(i,j) / deg(i) )  +  0.01 · comp(e).
  Over the extended reals the two agree when every entry of `e` is a real number and no degree is zero:
  division by a nonzero real is multiplication by its reciprocal, which distributes over a finite sum of
  reals.  (At a zero degree they differ: `r / 0` is the infinity of `r`'s sign, so a row with entries of both
  signs gives `⊤` on one side and `⊥` on the other.)  The precondition says exactly that: the embeddings finite,
  every row's degree nonzero.

  The three frames are the runs with the results dropped; the idealization rewrote nothing, so `preserves` is
  `True`; `algebraic` puts the two runs side by side at `Spec.kernelLoss`.
-/
import proofs.«101301_j75651553951784_2_alg».proof.Defs
import proofs.«101301_j75651553951784_2_alg».proof.Proof.Gen.Kernel
import proofs.«101301_j75651553951784_2_alg».proof.Proof.Gen.KernelIdeal
import proofs.«101301_j75651553951784_2_alg».proof.Proof.Gen.ReferenceIdeal
import proofs.«101301_j75651553951784_2_alg».proof.Proof.Gen.Pre_finite_inputs
import proofs.«101301_j75651553951784_2_alg».proof.Proof.K.Body
import proofs.«101301_j75651553951784_2_alg».proof.Proof.K.Launch
import proofs.«101301_j75651553951784_2_alg».proof.Proof.KI.Body
import proofs.«101301_j75651553951784_2_alg».proof.Proof.KI.Launch
import proofs.«101301_j75651553951784_2_alg».proof.Proof.KI.OutValue
import proofs.«101301_j75651553951784_2_alg».proof.Proof.KI.TailValue
import proofs.«101301_j75651553951784_2_alg».proof.Proof.RefValue
import proofs.«101301_j75651553951784_2_alg».proof.Proof.PreDecode
import proofs.«101301_j75651553951784_2_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs to the end and leaves its arguments unchanged. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => (h c).2)
    (Cert.Kernel.Hand.run_main_of (F := Bits) m ρ (fun c => Cert.Kernel.Hand.body_obligation (F := Bits) m c))

/-- So does the idealized kernel. -/
theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2)
    (Cert.KernelIdeal.Hand.run_main_of (F := Ideal) m ρ (fun c => Cert.KernelIdeal.Hand.body_obligation (F := Ideal) m c))

/-- And the reference. -/
theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2)
    (Cert.ReferenceIdeal.RefValue.run m ρ)

/-- From memories that agree on the arguments, under the precondition, both programs end with the kernel's loss. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Spec.kernelLoss (Cert.KernelIdeal.Hand.eArg m c) (Cert.KernelIdeal.Hand.aArg m c), ?_, ?_⟩
  · exact (θ_run (Cert.KernelIdeal.defs (F := Ideal)) _ _).mono
      (fun _ h c => ⟨(h c).1.trans (Cert.KernelIdeal.Hand.tail_eq m c (Cert.KernelIdeal.Hand.out_apply m c)), (h c).2⟩)
      (Cert.KernelIdeal.Hand.run_main_of (F := Ideal) m ρ (fun c => Cert.KernelIdeal.Hand.body_obligation (F := Ideal) m c))
  · refine (θ_run (Cert.ReferenceIdeal.defs (F := Ideal)) _ _).mono (fun _ h c => ⟨(h c).1.trans ?_, (h c).2⟩)
      (Cert.ReferenceIdeal.RefValue.run m' ρ')
    rw [(hagree c).1, (hagree c).2]
    exact funext fun _ => (Cert.Spec.kernelLoss_eq_refLoss _ _
      (Cert.PreRead.finite_of_pre _ _ (hpre c)) (fun i j => ⟨_, rfl⟩) (Cert.PreRead.deg_ne_zero_of_pre _ _ (hpre c))).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
